-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32 : Shape := ⟨2, ![4096, 32]⟩
abbrev S4096x32x384 : Shape := ⟨3, ![4096, 32, 384]⟩
abbrev S4x384x160 : Shape := ⟨3, ![4, 384, 160]⟩
abbrev S4x160 : Shape := ⟨2, ![4, 160]⟩
abbrev S4x160x128 : Shape := ⟨3, ![4, 160, 128]⟩
abbrev S4x128 : Shape := ⟨2, ![4, 128]⟩
abbrev S4x128x96 : Shape := ⟨3, ![4, 128, 96]⟩
abbrev S4x96 : Shape := ⟨2, ![4, 96]⟩
abbrev S4x96x1 : Shape := ⟨3, ![4, 96, 1]⟩
abbrev S4x1 : Shape := ⟨2, ![4, 1]⟩
abbrev S_ : Shape := ⟨0, ![]⟩

class Facts : Prop where
  bcast_S_S4096x32x384 : S_.BroadcastsInDim S4096x32x384 (![] : Fin 0 → Fin S4096x32x384.rank)
  reducesTo_S4096x32x384_S_d0_1_2 : S4096x32x384.ReducesTo [0, 1, 2] S_
  h_S_ : 0 < S_.numel
  bcast_S_S4x384x160 : S_.BroadcastsInDim S4x384x160 (![] : Fin 0 → Fin S4x384x160.rank)
  reducesTo_S4x384x160_S_d0_1_2 : S4x384x160.ReducesTo [0, 1, 2] S_
  bcast_S_S4x160 : S_.BroadcastsInDim S4x160 (![] : Fin 0 → Fin S4x160.rank)
  reducesTo_S4x160_S_d0_1 : S4x160.ReducesTo [0, 1] S_
  bcast_S_S4x160x128 : S_.BroadcastsInDim S4x160x128 (![] : Fin 0 → Fin S4x160x128.rank)
  reducesTo_S4x160x128_S_d0_1_2 : S4x160x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x96 : S_.BroadcastsInDim S4x128x96 (![] : Fin 0 → Fin S4x128x96.rank)
  reducesTo_S4x128x96_S_d0_1_2 : S4x128x96.ReducesTo [0, 1, 2] S_
  bcast_S_S4x96 : S_.BroadcastsInDim S4x96 (![] : Fin 0 → Fin S4x96.rank)
  reducesTo_S4x96_S_d0_1 : S4x96.ReducesTo [0, 1] S_
  bcast_S_S4x96x1 : S_.BroadcastsInDim S4x96x1 (![] : Fin 0 → Fin S4x96x1.rank)
  reducesTo_S4x96x1_S_d0_1_2 : S4x96x1.ReducesTo [0, 1, 2] S_
  bcast_S_S4x1 : S_.BroadcastsInDim S4x1 (![] : Fin 0 → Fin S4x1.rank)
  reducesTo_S4x1_S_d0_1 : S4x1.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part2 {F : FTy → Type} [FloatOps F] (main_arg0 : IVec S4096x32 32) (main_arg8 : FVec F S4x96x1 .f32) (main_arg9 : FVec F S4x1 .f32) (main_v33 : IVec S_ 1) : IVec S_ 1 :=
  let main_v34 : FVec F S4x96x1 .f32 := Host.absf main_arg8
  let main_cst_12 : FVec F S_ .f32 := constant S_ .f32 0x7F800000#32
  let main_v35 : FVec F S4x96x1 .f32 := broadcastInDim S4x96x1 ![] bcast_S_S4x96x1 main_cst_12
  let main_v36 : IVec S4x96x1 1 := cmpf .olt main_v34 main_v35
  let main_c_13 : IVec S_ 1 := constantI S_ 1 1#1
  let main_v37 : IVec S_ 1 := (fun x v => Host.reduce IntOp.andi x v reducesTo_S4x96x1_S_d0_1_2 h_S_) main_v36 main_c_13
  let main_v38 : IVec S_ 1 := andi main_v33 main_v37
  let main_v39 : FVec F S4x1 .f32 := Host.absf main_arg9
  let main_cst_14 : FVec F S_ .f32 := constant S_ .f32 0x7F800000#32
  let main_v40 : FVec F S4x1 .f32 := broadcastInDim S4x1 ![] bcast_S_S4x1 main_cst_14
  let main_v41 : IVec S4x1 1 := cmpf .olt main_v39 main_v40
  let main_c_15 : IVec S_ 1 := constantI S_ 1 1#1
  let main_v42 : IVec S_ 1 := (fun x v => Host.reduce IntOp.andi x v reducesTo_S4x1_S_d0_1 h_S_) main_v41 main_c_15
  let main_v43 : IVec S_ 1 := andi main_v38 main_v42
  let main_c_16 : IVec S_ 32 := constantI S_ 32 0#32
  let main_v44 : IVec S4096x32 32 := broadcastInDim S4096x32 ![] bcast_S_S4096x32 main_c_16
  let main_v45 : IVec S4096x32 1 := cmpi .sge main_arg0 main_v44
  let main_c_17 : IVec S_ 1 := constantI S_ 1 1#1
  let main_v46 : IVec S_ 1 := (fun x v => Host.reduce IntOp.andi x v reducesTo_S4096x32_S_d0_1 h_S_) main_v45 main_c_17
  let main_v47 : IVec S_ 1 := andi main_v43 main_v46
  main_v47

def fn_part1 {F : FTy → Type} [FloatOps F] (main_arg0 : IVec S4096x32 32) (main_arg5 : FVec F S4x128 .f32) (main_arg6 : FVec F S4x128x96 .f32) (main_arg7 : FVec F S4x96 .f32) (main_arg8 : FVec F S4x96x1 .f32) (main_arg9 : FVec F S4x1 .f32) (main_v13 : IVec S_ 1) (main_v16 : IVec S4x160x128 1) : IVec S_ 1 :=
  let main_c_5 : IVec S_ 1 := constantI S_ 1 1#1
  let main_v17 : IVec S_ 1 := (fun x v => Host.reduce IntOp.andi x v reducesTo_S4x160x128_S_d0_1_2 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128x96 .f32 := Host.absf main_arg6
  let main_cst_8 : FVec F S_ .f32 := constant S_ .f32 0x7F800000#32
  let main_v25 : FVec F S4x128x96 .f32 := broadcastInDim S4x128x96 ![] bcast_S_S4x128x96 main_cst_8
  let main_v26 : IVec S4x128x96 1 := cmpf .olt main_v24 main_v25
  let main_c_9 : IVec S_ 1 := constantI S_ 1 1#1
  let main_v27 : IVec S_ 1 := (fun x v => Host.reduce IntOp.andi x v reducesTo_S4x128x96_S_d0_1_2 h_S_) main_v26 main_c_9
  let main_v28 : IVec S_ 1 := andi main_v23 main_v27
  let main_v29 : FVec F S4x96 .f32 := Host.absf main_arg7
  let main_cst_10 : FVec F S_ .f32 := constant S_ .f32 0x7F800000#32
  let main_v30 : FVec F S4x96 .f32 := broadcastInDim S4x96 ![] bcast_S_S4x96 main_cst_10
  let main_v31 : IVec S4x96 1 := cmpf .olt main_v29 main_v30
  let main_c_11 : IVec S_ 1 := constantI S_ 1 1#1
  let main_v32 : IVec S_ 1 := (fun x v => Host.reduce IntOp.andi x v reducesTo_S4x96_S_d0_1 h_S_) main_v31 main_c_11
  let main_v33 : IVec S_ 1 := andi main_v28 main_v32
  fn_part2 (F := F) main_arg0 main_arg8 main_arg9 main_v33

def fn {F : FTy → Type} [FloatOps F] (main_arg0 : IVec S4096x32 32) (main_arg1 : FVec F S4096x32x384 .f32) (main_arg2 : FVec F S4x384x160 .f32) (main_arg3 : FVec F S4x160 .f32) (main_arg4 : FVec F S4x160x128 .f32) (main_arg5 : FVec F S4x128 .f32) (main_arg6 : FVec F S4x128x96 .f32) (main_arg7 : FVec F S4x96 .f32) (main_arg8 : FVec F S4x96x1 .f32) (main_arg9 : FVec F S4x1 .f32) : IVec S_ 1 :=
  let main_v0 : FVec F S4096x32x384 .f32 := Host.absf main_arg1
  let main_cst : FVec F S_ .f32 := constant S_ .f32 0x7F800000#32
  let main_v1 : FVec F S4096x32x384 .f32 := broadcastInDim S4096x32x384 ![] bcast_S_S4096x32x384 main_cst
  let main_v2 : IVec S4096x32x384 1 := cmpf .olt main_v0 main_v1
  let main_c : IVec S_ 1 := constantI S_ 1 1#1
  let main_v3 : IVec S_ 1 := (fun x v => Host.reduce IntOp.andi x v reducesTo_S4096x32x384_S_d0_1_2 h_S_) main_v2 main_c
  let main_v4 : FVec F S4x384x160 .f32 := Host.absf main_arg2
  let main_cst_0 : FVec F S_ .f32 := constant S_ .f32 0x7F800000#32
  let main_v5 : FVec F S4x384x160 .f32 := broadcastInDim S4x384x160 ![] bcast_S_S4x384x160 main_cst_0
  let main_v6 : IVec S4x384x160 1 := cmpf .olt main_v4 main_v5
  let main_c_1 : IVec S_ 1 := constantI S_ 1 1#1
  let main_v7 : IVec S_ 1 := (fun x v => Host.reduce IntOp.andi x v reducesTo_S4x384x160_S_d0_1_2 h_S_) main_v6 main_c_1
  let main_v8 : IVec S_ 1 := andi main_v3 main_v7
  let main_v9 : FVec F S4x160 .f32 := Host.absf main_arg3
  let main_cst_2 : FVec F S_ .f32 := constant S_ .f32 0x7F800000#32
  let main_v10 : FVec F S4x160 .f32 := broadcastInDim S4x160 ![] bcast_S_S4x160 main_cst_2
  let main_v11 : IVec S4x160 1 := cmpf .olt main_v9 main_v10
  let main_c_3 : IVec S_ 1 := constantI S_ 1 1#1
  let main_v12 : IVec S_ 1 := (fun x v => Host.reduce IntOp.andi x v reducesTo_S4x160_S_d0_1 h_S_) main_v11 main_c_3
  let main_v13 : IVec S_ 1 := andi main_v8 main_v12
  let main_v14 : FVec F S4x160x128 .f32 := Host.absf main_arg4
  let main_cst_4 : FVec F S_ .f32 := constant S_ .f32 0x7F800000#32
  let main_v15 : FVec F S4x160x128 .f32 := broadcastInDim S4x160x128 ![] bcast_S_S4x160x128 main_cst_4
  let main_v16 : IVec S4x160x128 1 := cmpf .olt main_v14 main_v15
  fn_part1 (F := F) main_arg0 main_arg5 main_arg6 main_arg7 main_arg8 main_arg9 main_v13 main_v16
-- ==== Kernel.lean ====
abbrev S4096x32 : Shape := ⟨2, ![4096, 32]⟩
abbrev S4096x32x384 : Shape := ⟨3, ![4096, 32, 384]⟩
abbrev S4x384x160 : Shape := ⟨3, ![4, 384, 160]⟩
abbrev S4x160 : Shape := ⟨2, ![4, 160]⟩
abbrev S4x160x128 : Shape := ⟨3, ![4, 160, 128]⟩
abbrev S4x128 : Shape := ⟨2, ![4, 128]⟩
abbrev S4x128x96 : Shape := ⟨3, ![4, 128, 96]⟩
abbrev S4x96 : Shape := ⟨2, ![4, 96]⟩
abbrev S4x96x1 : Shape := ⟨3, ![4, 96, 1]⟩
abbrev S4x1 : Shape := ⟨2, ![4, 1]⟩
abbrev S131072 : Shape := ⟨1, ![131072]⟩
abbrev S_ : Shape := ⟨0, ![]⟩
abbrev S131072x384 : Shape := ⟨2, ![131072, 384]⟩
abbrev S4096x384 : Shape := ⟨2, ![4096, 384]⟩
abbrev S4096 : Shape := ⟨1, ![4096]⟩
abbrev S1x384x160 : Shape := ⟨3, ![1, 384, 160]⟩
abbrev S384x160 : Shape := ⟨2, ![384, 160]⟩
abbrev S4096x160 : Shape := ⟨2, ![4096, 160]⟩
abbrev S1x160 : Shape := ⟨2, ![1, 160]⟩
abbrev S160 : Shape := ⟨1, ![160]⟩
abbrev S1x160x128 : Shape := ⟨3, ![1, 160, 128]⟩
abbrev S160x128 : Shape := ⟨2, ![160, 128]⟩
abbrev S4096x128 : Shape := ⟨2, ![4096, 128]⟩
abbrev S1x128 : Shape := ⟨2, ![1, 128]⟩
abbrev S128 : Shape := ⟨1, ![128]⟩
abbrev S1x128x96 : Shape := ⟨3, ![1, 128, 96]⟩
abbrev S128x96 : Shape := ⟨2, ![128, 96]⟩
abbrev S4096x96 : Shape := ⟨2, ![4096, 96]⟩
abbrev S1x96 : Shape := ⟨2, ![1, 96]⟩
abbrev S96 : Shape := ⟨1, ![96]⟩
abbrev S1x96x1 : Shape := ⟨3, ![1, 96, 1]⟩
abbrev S96x1 : Shape := ⟨2, ![96, 1]⟩
abbrev S1x1 : Shape := ⟨2, ![1, 1]⟩
abbrev S1 : Shape := ⟨1, ![1]⟩

abbrev nBuf : Space → Nat
  | .hbm => 24
  | .vmem => 14
  | .smem => 0
  | _ => 0

abbrev bufTy : (tb : Table) → Fin (tcTables nBuf tb) → BufTy
  | .hbm, ⟨0, _⟩ => ⟨S4096x32, .i32⟩
  | .hbm, ⟨1, _⟩ => ⟨S4096x32x384, .f32⟩
  | .hbm, ⟨2, _⟩ => ⟨S4x384x160, .f32⟩
  | .hbm, ⟨3, _⟩ => ⟨S4x160, .f32⟩
  | .hbm, ⟨4, _⟩ => ⟨S4x160x128, .f32⟩
  | .hbm, ⟨5, _⟩ => ⟨S4x128, .f32⟩
  | .hbm, ⟨6, _⟩ => ⟨S4x128x96, .f32⟩
  | .hbm, ⟨7, _⟩ => ⟨S4x96, .f32⟩
  | .hbm, ⟨8, _⟩ => ⟨S4x96x1, .f32⟩
  | .hbm, ⟨9, _⟩ => ⟨S4x1, .f32⟩
  | .hbm, ⟨10, _⟩ => ⟨S131072, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S131072, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S131072, .i32⟩
  | .hbm, ⟨19, _⟩ => ⟨S131072x384, .f32⟩
  | .hbm, ⟨20, _⟩ => ⟨S131072, .f32⟩
  | .hbm, ⟨21, _⟩ => ⟨S4096x32, .f32⟩
  | .hbm, ⟨22, _⟩ => ⟨S_, .f32⟩
  | .hbm, ⟨23, _⟩ => ⟨S4096, .f32⟩
  | .local _ .vmem, ⟨0, _⟩ => ⟨S4096x384, .f32⟩
  | .local _ .vmem, ⟨1, _⟩ => ⟨S4096x384, .f32⟩
  | .local _ .vmem, ⟨2, _⟩ => ⟨S4096, .i32⟩
  | .local _ .vmem, ⟨3, _⟩ => ⟨S4096, .i32⟩
  | .local _ .vmem, ⟨4, _⟩ => ⟨S4x384x160, .f32⟩
  | .local _ .vmem, ⟨5, _⟩ => ⟨S4x160, .f32⟩
  | .local _ .vmem, ⟨6, _⟩ => ⟨S4x160x128, .f32⟩
  | .local _ .vmem, ⟨7, _⟩ => ⟨S4x128, .f32⟩
  | .local _ .vmem, ⟨8, _⟩ => ⟨S4x128x96, .f32⟩
  | .local _ .vmem, ⟨9, _⟩ => ⟨S4x96, .f32⟩
  | .local _ .vmem, ⟨10, _⟩ => ⟨S4x96x1, .f32⟩
  | .local _ .vmem, ⟨11, _⟩ => ⟨S4x1, .f32⟩
  | .local _ .vmem, ⟨12, _⟩ => ⟨S4096, .f32⟩
  | .local _ .vmem, ⟨13, _⟩ => ⟨S4096, .f32⟩
  | _, _ => ⟨S4096x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x384x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x96x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S4096x32_S131072 : S4096x32.ShapeCasts S131072
  bcast_S_S131072 : S_.BroadcastsInDim S131072 (![] : Fin 0 → Fin S131072.rank)
  shapeCasts_S4096x32x384_S131072x384 : S4096x32x384.ShapeCasts S131072x384
  inb_S4096_S4096_0 : ∀ a, (![0] : Fin 1 → Nat) a + S4096.size a ≤ S4096.size a
  h_S4096 : 0 < S4096.numel
  shapeCasts_S4096_S4096 : S4096.ShapeCasts S4096
  inb_S4096x384_S4096x384_0_0 : ∀ a, (![0, 0] : Fin 2 → Nat) a + S4096x384.size a ≤ S4096x384.size a
  h_S4096x384 : 0 < S4096x384.numel
  shapeCasts_S4096x384_S4096x384 : S4096x384.ShapeCasts S4096x384
  bitsLt_bf16_f32 : FTy.bits .bf16 < FTy.bits .f32
  inb_S4x384x160_S1x384x160_0_0_0 : ∀ a, (![0, 0, 0] : Fin 3 → Nat) a + S1x384x160.size a ≤ S4x384x160.size a
  h_S1x384x160 : 0 < S1x384x160.numel
  shapeCasts_S1x384x160_S384x160 : S1x384x160.ShapeCasts S384x160
  inb_S4x160_S1x160_0_0 : ∀ a, (![0, 0] : Fin 2 → Nat) a + S1x160.size a ≤ S4x160.size a
  h_S1x160 : 0 < S1x160.numel
  shapeCasts_S1x160_S160 : S1x160.ShapeCasts S160
  shapeCasts_S160_S1x160 : S160.ShapeCasts S1x160
  broadcasts_S1x160_S4096x160 : S1x160.Broadcasts S4096x160
  inb_S4x160x128_S1x160x128_0_0_0 : ∀ a, (![0, 0, 0] : Fin 3 → Nat) a + S1x160x128.size a ≤ S4x160x128.size a
  h_S1x160x128 : 0 < S1x160x128.numel
  shapeCasts_S1x160x128_S160x128 : S1x160x128.ShapeCasts S160x128
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S1x128 : S128.ShapeCasts S1x128
  broadcasts_S1x128_S4096x128 : S1x128.Broadcasts S4096x128
  inb_S4x128x96_S1x128x96_0_0_0 : ∀ a, (![0, 0, 0] : Fin 3 → Nat) a + S1x128x96.size a ≤ S4x128x96.size a
  h_S1x128x96 : 0 < S1x128x96.numel
  shapeCasts_S1x128x96_S128x96 : S1x128x96.ShapeCasts S128x96
  inb_S4x96_S1x96_0_0 : ∀ a, (![0, 0] : Fin 2 → Nat) a + S1x96.size a ≤ S4x96.size a
  h_S1x96 : 0 < S1x96.numel
  shapeCasts_S1x96_S96 : S1x96.ShapeCasts S96
  shapeCasts_S96_S1x96 : S96.ShapeCasts S1x96
  broadcasts_S1x96_S4096x96 : S1x96.Broadcasts S4096x96
  inb_S4x96x1_S1x96x1_0_0_0 : ∀ a, (![0, 0, 0] : Fin 3 → Nat) a + S1x96x1.size a ≤ S4x96x1.size a
  h_S1x96x1 : 0 < S1x96x1.numel
  shapeCasts_S1x96x1_S96x1 : S1x96x1.ShapeCasts S96x1
  shapeCasts_S96x1_S96 : S96x1.ShapeCasts S96
  reduces_S4096x96_S4096 : S4096x96.Reduces [1] S4096
  inb_S4x1_S1x1_0_0 : ∀ a, (![0, 0] : Fin 2 → Nat) a + S1x1.size a ≤ S4x1.size a
  h_S1x1 : 0 < S1x1.numel
  shapeCasts_S1x1_S1 : S1x1.ShapeCasts S1
  broadcasts_S1_S4096 : S1.Broadcasts S4096
  inb_S4x384x160_S1x384x160_1_0_0 : ∀ a, (![1, 0, 0] : Fin 3 → Nat) a + S1x384x160.size a ≤ S4x384x160.size a
  inb_S4x160_S1x160_1_0 : ∀ a, (![1, 0] : Fin 2 → Nat) a + S1x160.size a ≤ S4x160.size a
  inb_S4x160x128_S1x160x128_1_0_0 : ∀ a, (![1, 0, 0] : Fin 3 → Nat) a + S1x160x128.size a ≤ S4x160x128.size a
  inb_S4x128_S1x128_1_0 : ∀ a, (![1, 0] : Fin 2 → Nat) a + S1x128.size a ≤ S4x128.size a
  inb_S4x128x96_S1x128x96_1_0_0 : ∀ a, (![1, 0, 0] : Fin 3 → Nat) a + S1x128x96.size a ≤ S4x128x96.size a
  inb_S4x96_S1x96_1_0 : ∀ a, (![1, 0] : Fin 2 → Nat) a + S1x96.size a ≤ S4x96.size a
  inb_S4x96x1_S1x96x1_1_0_0 : ∀ a, (![1, 0, 0] : Fin 3 → Nat) a + S1x96x1.size a ≤ S4x96x1.size a
  inb_S4x1_S1x1_1_0 : ∀ a, (![1, 0] : Fin 2 → Nat) a + S1x1.size a ≤ S4x1.size a
  inb_S4x384x160_S1x384x160_2_0_0 : ∀ a, (![2, 0, 0] : Fin 3 → Nat) a + S1x384x160.size a ≤ S4x384x160.size a
  inb_S4x160_S1x160_2_0 : ∀ a, (![2, 0] : Fin 2 → Nat) a + S1x160.size a ≤ S4x160.size a
  inb_S4x160x128_S1x160x128_2_0_0 : ∀ a, (![2, 0, 0] : Fin 3 → Nat) a + S1x160x128.size a ≤ S4x160x128.size a
  inb_S4x128_S1x128_2_0 : ∀ a, (![2, 0] : Fin 2 → Nat) a + S1x128.size a ≤ S4x128.size a
  inb_S4x128x96_S1x128x96_2_0_0 : ∀ a, (![2, 0, 0] : Fin 3 → Nat) a + S1x128x96.size a ≤ S4x128x96.size a
  inb_S4x96_S1x96_2_0 : ∀ a, (![2, 0] : Fin 2 → Nat) a + S1x96.size a ≤ S4x96.size a
  inb_S4x96x1_S1x96x1_2_0_0 : ∀ a, (![2, 0, 0] : Fin 3 → Nat) a + S1x96x1.size a ≤ S4x96x1.size a
  inb_S4x1_S1x1_2_0 : ∀ a, (![2, 0] : Fin 2 → Nat) a + S1x1.size a ≤ S4x1.size a
  inb_S4x384x160_S1x384x160_3_0_0 : ∀ a, (![3, 0, 0] : Fin 3 → Nat) a + S1x384x160.size a ≤ S4x384x160.size a
  inb_S4x160_S1x160_3_0 : ∀ a, (![3, 0] : Fin 2 → Nat) a + S1x160.size a ≤ S4x160.size a
  inb_S4x160x128_S1x160x128_3_0_0 : ∀ a, (![3, 0, 0] : Fin 3 → Nat) a + S1x160x128.size a ≤ S4x160x128.size a
  inb_S4x128_S1x128_3_0 : ∀ a, (![3, 0] : Fin 2 → Nat) a + S1x128.size a ≤ S4x128.size a
  inb_S4x128x96_S1x128x96_3_0_0 : ∀ a, (![3, 0, 0] : Fin 3 → Nat) a + S1x128x96.size a ≤ S4x128x96.size a
  inb_S4x96_S1x96_3_0 : ∀ a, (![3, 0] : Fin 2 → Nat) a + S1x96.size a ≤ S4x96.size a
  inb_S4x96x1_S1x96x1_3_0_0 : ∀ a, (![3, 0, 0] : Fin 3 → Nat) a + S1x96x1.size a ≤ S4x96x1.size a
  inb_S4x1_S1x1_3_0 : ∀ a, (![3, 0] : Fin 2 → Nat) a + S1x1.size a ≤ S4x1.size a
  shapeCasts_S131072_S4096x32 : S131072.ShapeCasts S4096x32
  reducesTo_S4096x32_S4096_d1 : S4096x32.ReducesTo [1] S4096
  h_S_ : 0 < S_.numel
  dot_S4096x384_S384x160_S4096x160_1_0_0_1_n_n_wf : DotDims.WF S4096x384 S384x160 S4096x160 [1] [0] [0] [1] [] []
  dot_S4096x160_S160x128_S4096x128_1_0_0_1_n_n_wf : DotDims.WF S4096x160 S160x128 S4096x128 [1] [0] [0] [1] [] []
  dot_S4096x128_S128x96_S4096x96_1_0_0_1_n_n_wf : DotDims.WF S4096x128 S128x96 S4096x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x384.size a ≤ S131072x384.size a
  hwx0_0 : ∀ i : grid0.Coords, EltTy.bits .f32 = 32 ∨ (Rect.block (s := S131072x384) S4096x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S131072.size a
  hwx0_1 : ∀ i : grid0.Coords, EltTy.bits .i32 = 32 ∨ (Rect.block (s := S131072) S4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x384x160.size a ≤ S4x384x160.size a
  hwx0_2 : ∀ i : grid0.Coords, EltTy.bits .f32 = 32 ∨ (Rect.block (s := S4x384x160) S4x384x160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x160.size a ≤ S4x160.size a
  hwx0_3 : ∀ i : grid0.Coords, EltTy.bits .f32 = 32 ∨ (Rect.block (s := S4x160) S4x160.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x160x128.size a ≤ S4x160x128.size a
  hwx0_4 : ∀ i : grid0.Coords, EltTy.bits .f32 = 32 ∨ (Rect.block (s := S4x160x128) S4x160x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x128.size a ≤ S4x128.size a
  hwx0_5 : ∀ i : grid0.Coords, EltTy.bits .f32 = 32 ∨ (Rect.block (s := S4x128) S4x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x128x96.size a ≤ S4x128x96.size a
  hwx0_6 : ∀ i : grid0.Coords, EltTy.bits .f32 = 32 ∨ (Rect.block (s := S4x128x96) S4x128x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x96.size a ≤ S4x96.size a
  hwx0_7 : ∀ i : grid0.Coords, EltTy.bits .f32 = 32 ∨ (Rect.block (s := S4x96) S4x96.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x96x1.size a ≤ S4x96x1.size a
  hwx0_8 : ∀ i : grid0.Coords, EltTy.bits .f32 = 32 ∨ (Rect.block (s := S4x96x1) S4x96x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x1.size a ≤ S4x1.size a
  hwx0_9 : ∀ i : grid0.Coords, EltTy.bits .f32 = 32 ∨ (Rect.block (s := S4x1) S4x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096.size a ≤ S131072.size a
  hwx0_10 : ∀ i : grid0.Coords, EltTy.bits .f32 = 32 ∨ (Rect.block (s := S131072) S4096.size (cc0_transform_10 i) (hinb0_10 i)).WholeWords (EltTy.packing .f32)

variable [Facts₀]

def dot_S4096x384_S384x160_S4096x160_1_0_0_1_n_n : DotDims S4096x384 S384x160 S4096x160 where
  lhsContracting := [1]
  rhsContracting := [0]
  lhsNonContracting := [0]
  rhsNonContracting := [1]
  lhsBatch := []
  rhsBatch := []
  wf := dot_S4096x384_S384x160_S4096x160_1_0_0_1_n_n_wf
def dot_S4096x160_S160x128_S4096x128_1_0_0_1_n_n : DotDims S4096x160 S160x128 S4096x128 where
  lhsContracting := [1]
  rhsContracting := [0]
  lhsNonContracting := [0]
  rhsNonContracting := [1]
  lhsBatch := []
  rhsBatch := []
  wf := dot_S4096x160_S160x128_S4096x128_1_0_0_1_n_n_wf
def dot_S4096x128_S128x96_S4096x96_1_0_0_1_n_n : DotDims S4096x128 S128x96 S4096x96 where
  lhsContracting := [1]
  rhsContracting := [0]
  lhsNonContracting := [0]
  rhsNonContracting := [1]
  lhsBatch := []
  rhsBatch := []
  wf := dot_S4096x128_S128x96_S4096x96_1_0_0_1_n_n_wf

abbrev win0_0 : Pipeline.Window sig grid0 :=
  Pipeline.Window.ofSpec (Memref.whole main_v2) S4096x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x384x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x160x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x128x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x96.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x96x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S4x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S4096.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x32 : Shape := ⟨2, ![4096, 32]⟩
abbrev S4096x32x384 : Shape := ⟨3, ![4096, 32, 384]⟩
abbrev S4x384x160 : Shape := ⟨3, ![4, 384, 160]⟩
abbrev S4x160 : Shape := ⟨2, ![4, 160]⟩
abbrev S4x160x128 : Shape := ⟨3, ![4, 160, 128]⟩
abbrev S4x128 : Shape := ⟨2, ![4, 128]⟩
abbrev S4x128x96 : Shape := ⟨3, ![4, 128, 96]⟩
abbrev S4x96 : Shape := ⟨2, ![4, 96]⟩
abbrev S4x96x1 : Shape := ⟨3, ![4, 96, 1]⟩
abbrev S4x1 : Shape := ⟨2, ![4, 1]⟩
abbrev S131072 : Shape := ⟨1, ![131072]⟩
abbrev S131072x384 : Shape := ⟨2, ![131072, 384]⟩
abbrev S1x131072x384 : Shape := ⟨3, ![1, 131072, 384]⟩
abbrev S4x131072x384 : Shape := ⟨3, ![4, 131072, 384]⟩
abbrev S4x131072x160 : Shape := ⟨3, ![4, 131072, 160]⟩
abbrev S4x1x160 : Shape := ⟨3, ![4, 1, 160]⟩
abbrev S_ : Shape := ⟨0, ![]⟩
abbrev S4x131072x128 : Shape := ⟨3, ![4, 131072, 128]⟩
abbrev S4x1x128 : Shape := ⟨3, ![4, 1, 128]⟩
abbrev S4x131072x96 : Shape := ⟨3, ![4, 131072, 96]⟩
abbrev S4x1x96 : Shape := ⟨3, ![4, 1, 96]⟩
abbrev S4x131072x1 : Shape := ⟨3, ![4, 131072, 1]⟩
abbrev S4x1x1 : Shape := ⟨3, ![4, 1, 1]⟩
abbrev S4x131072 : Shape := ⟨2, ![4, 131072]⟩
abbrev S131072x1 : Shape := ⟨2, ![131072, 1]⟩
abbrev S131072x2 : Shape := ⟨2, ![131072, 2]⟩
abbrev S4096 : Shape := ⟨1, ![4096]⟩

abbrev nBuf : Space → Nat
  | .hbm => 98
  | .vmem => 0
  | .smem => 0
  | _ => 0

abbrev bufTy : (tb : Table) → Fin (tcTables nBuf tb) → BufTy
  | .hbm, ⟨0, _⟩ => ⟨S4096x32, .i32⟩
  | .hbm, ⟨1, _⟩ => ⟨S4096x32x384, .f32⟩
  | .hbm, ⟨2, _⟩ => ⟨S4x384x160, .f32⟩
  | .hbm, ⟨3, _⟩ => ⟨S4x160, .f32⟩
  | .hbm, ⟨4, _⟩ => ⟨S4x160x128, .f32⟩
  | .hbm, ⟨5, _⟩ => ⟨S4x128, .f32⟩
  | .hbm, ⟨6, _⟩ => ⟨S4x128x96, .f32⟩
  | .hbm, ⟨7, _⟩ => ⟨S4x96, .f32⟩
  | .hbm, ⟨8, _⟩ => ⟨S4x96x1, .f32⟩
  | .hbm, ⟨9, _⟩ => ⟨S4x1, .f32⟩
  | .hbm, ⟨10, _⟩ => ⟨S131072, .i32⟩
  | .hbm, ⟨11, _⟩ => ⟨S131072x384, .f32⟩
  | .hbm, ⟨12, _⟩ => ⟨S1x131072x384, .f32⟩
  | .hbm, ⟨13, _⟩ => ⟨S4x131072x384, .f32⟩
  | .hbm, ⟨14, _⟩ => ⟨S4x131072x160, .f32⟩
  | .hbm, ⟨15, _⟩ => ⟨S4x1x160, .f32⟩
  | .hbm, ⟨16, _⟩ => ⟨S4x131072x160, .f32⟩
  | .hbm, ⟨17, _⟩ => ⟨S4x131072x160, .f32⟩
  | .hbm, ⟨18, _⟩ => ⟨S_, .f32⟩
  | .hbm, ⟨19, _⟩ => ⟨S_, .f32⟩
  | .hbm, ⟨20, _⟩ => ⟨S4x131072x160, .f32⟩
  | .hbm, ⟨21, _⟩ => ⟨S4x131072x160, .f32⟩
  | .hbm, ⟨22, _⟩ => ⟨S_, .f32⟩
  | .hbm, ⟨23, _⟩ => ⟨S4x131072x160, .f32⟩
  | .hbm, ⟨24, _⟩ => ⟨S4x131072x160, .f32⟩
  | .hbm, ⟨25, _⟩ => ⟨S_, .f32⟩
  | .hbm, ⟨26, _⟩ => ⟨S4x131072x160, .f32⟩
  | .hbm, ⟨27, _⟩ => ⟨S4x131072x160, .f32⟩
  | .hbm, ⟨28, _⟩ => ⟨S4x131072x160, .f32⟩
  | .hbm, ⟨29, _⟩ => ⟨S_, .f32⟩
  | .hbm, ⟨30, _⟩ => ⟨S4x131072x160, .f32⟩
  | .hbm, ⟨31, _⟩ => ⟨S4x131072x160, .f32⟩
  | .hbm, ⟨32, _⟩ => ⟨S4x131072x160, .f32⟩
  | .hbm, ⟨33, _⟩ => ⟨S4x131072x128, .f32⟩
  | .hbm, ⟨34, _⟩ => ⟨S4x1x128, .f32⟩
  | .hbm, ⟨35, _⟩ => ⟨S4x131072x128, .f32⟩
  | .hbm, ⟨36, _⟩ => ⟨S4x131072x128, .f32⟩
  | .hbm, ⟨37, _⟩ => ⟨S_, .f32⟩
  | .hbm, ⟨38, _⟩ => ⟨S_, .f32⟩
  | .hbm, ⟨39, _⟩ => ⟨S4x131072x128, .f32⟩
  | .hbm, ⟨40, _⟩ => ⟨S4x131072x128, .f32⟩
  | .hbm, ⟨41, _⟩ => ⟨S_, .f32⟩
  | .hbm, ⟨42, _⟩ => ⟨S4x131072x128, .f32⟩
  | .hbm, ⟨43, _⟩ => ⟨S4x131072x128, .f32⟩
  | .hbm, ⟨44, _⟩ => ⟨S_, .f32⟩
  | .hbm, ⟨45, _⟩ => ⟨S4x131072x128, .f32⟩
  | .hbm, ⟨46, _⟩ => ⟨S4x131072x128, .f32⟩
  | .hbm, ⟨47, _⟩ => ⟨S4x131072x128, .f32⟩
  | .hbm, ⟨48, _⟩ => ⟨S_, .f32⟩
  | .hbm, ⟨49, _⟩ => ⟨S4x131072x128, .f32⟩
  | .hbm, ⟨50, _⟩ => ⟨S4x131072x128, .f32⟩
  | .hbm, ⟨51, _⟩ => ⟨S4x131072x128, .f32⟩
  | .hbm, ⟨52, _⟩ => ⟨S4x131072x96, .f32⟩
  | .hbm, ⟨53, _⟩ => ⟨S4x1x96, .f32⟩
  | .hbm, ⟨54, _⟩ => ⟨S4x131072x96, .f32⟩
  | .hbm, ⟨55, _⟩ => ⟨S4x131072x96, .f32⟩
  | .hbm, ⟨56, _⟩ => ⟨S_, .f32⟩
  | .hbm, ⟨57, _⟩ => ⟨S_, .f32⟩
  | .hbm, ⟨58, _⟩ => ⟨S4x131072x96, .f32⟩
  | .hbm, ⟨59, _⟩ => ⟨S4x131072x96, .f32⟩
  | .hbm, ⟨60, _⟩ => ⟨S_, .f32⟩
  | .hbm, ⟨61, _⟩ => ⟨S4x131072x96, .f32⟩
  | .hbm, ⟨62, _⟩ => ⟨S4x131072x96, .f32⟩
  | .hbm, ⟨63, _⟩ => ⟨S_, .f32⟩
  | .hbm, ⟨64, _⟩ => ⟨S4x131072x96, .f32⟩
  | .hbm, ⟨65, _⟩ => ⟨S4x131072x96, .f32⟩
  | .hbm, ⟨66, _⟩ => ⟨S4x131072x96, .f32⟩
  | .hbm, ⟨67, _⟩ => ⟨S_, .f32⟩
  | .hbm, ⟨68, _⟩ => ⟨S4x131072x96, .f32⟩
  | .hbm, ⟨69, _⟩ => ⟨S4x131072x96, .f32⟩
  | .hbm, ⟨70, _⟩ => ⟨S4x131072x96, .f32⟩
  | .hbm, ⟨71, _⟩ => ⟨S4x131072x1, .f32⟩
  | .hbm, ⟨72, _⟩ => ⟨S4x1x1, .f32⟩
  | .hbm, ⟨73, _⟩ => ⟨S4x131072x1, .f32⟩
  | .hbm, ⟨74, _⟩ => ⟨S4x131072x1, .f32⟩
  | .hbm, ⟨75, _⟩ => ⟨S4x131072, .f32⟩
  | .hbm, ⟨76, _⟩ => ⟨S131072, .i32⟩
  | .hbm, ⟨77, _⟩ => ⟨S_, .i32⟩
  | .hbm, ⟨78, _⟩ => ⟨S131072, .i32⟩
  | .hbm, ⟨79, _⟩ => ⟨S131072, .i1⟩
  | .hbm, ⟨80, _⟩ => ⟨S_, .i32⟩
  | .hbm, ⟨81, _⟩ => ⟨S131072, .i32⟩
  | .hbm, ⟨82, _⟩ => ⟨S131072, .i32⟩
  | .hbm, ⟨83, _⟩ => ⟨S131072, .i32⟩
  | .hbm, ⟨84, _⟩ => ⟨S_, .i32⟩
  | .hbm, ⟨85, _⟩ => ⟨S131072, .i32⟩
  | .hbm, ⟨86, _⟩ => ⟨S131072, .i1⟩
  | .hbm, ⟨87, _⟩ => ⟨S_, .i32⟩
  | .hbm, ⟨88, _⟩ => ⟨S131072, .i32⟩
  | .hbm, ⟨89, _⟩ => ⟨S131072, .i32⟩
  | .hbm, ⟨90, _⟩ => ⟨S131072, .i32⟩
  | .hbm, ⟨91, _⟩ => ⟨S131072x1, .i32⟩
  | .hbm, ⟨92, _⟩ => ⟨S131072x1, .i32⟩
  | .hbm, ⟨93, _⟩ => ⟨S131072x2, .i32⟩
  | .hbm, ⟨94, _⟩ => ⟨S131072, .f32⟩
  | .hbm, ⟨95, _⟩ => ⟨S4096x32, .f32⟩
  | .hbm, ⟨96, _⟩ => ⟨S_, .f32⟩
  | .hbm, ⟨97, _⟩ => ⟨S4096, .f32⟩
  | _, _ => ⟨S4096x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_cst_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_cst_1 : Ref sig .tc := ⟨.hbm, 56, rfl⟩
abbrev main_call2_cst : Ref sig .tc := ⟨.hbm, 57, rfl⟩
abbrev main_call2_v0 : Ref sig .tc := ⟨.hbm, 58, rfl⟩
abbrev main_call2_v1 : Ref sig .tc := ⟨.hbm, 59, rfl⟩
abbrev main_call2_cst_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_c : Ref sig .tc := ⟨.hbm, 77, rfl⟩
abbrev main_v25 : Ref sig .tc := ⟨.hbm, 78, rfl⟩
abbrev main_v26 : Ref sig .tc := ⟨.hbm, 79, rfl⟩
abbrev main_c_2 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_c_3 : Ref sig .tc := ⟨.hbm, 84, rfl⟩
abbrev main_v30 : Ref sig .tc := ⟨.hbm, 85, rfl⟩
abbrev main_v31 : Ref sig .tc := ⟨.hbm, 86, rfl⟩
abbrev main_c_4 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_cst_5 : Ref sig .tc := ⟨.hbm, 96, rfl⟩
abbrev main_v40 : Ref sig .tc := ⟨.hbm, 97, rfl⟩

abbrev nD : Nat := 1
abbrev τ : Topo := Topo.v7x

variable {F : FTy → Type} [FloatOps F]

class Facts₀ : Prop where
  shapeCasts_S4096x32_S131072 : S4096x32.ShapeCasts S131072
  shapeCasts_S4096x32x384_S131072x384 : S4096x32x384.ShapeCasts S131072x384
  bcast_S131072x384_S1x131072x384_1_2 : S131072x384.BroadcastsInDim S1x131072x384 (![1, 2] : Fin 2 → Fin S1x131072x384.rank)
  bcast_S1x131072x384_S4x131072x384_0_1_2 : S1x131072x384.BroadcastsInDim S4x131072x384 (![0, 1, 2] : Fin 3 → Fin S4x131072x384.rank)
  bcast_S4x160_S4x1x160_0_2 : S4x160.BroadcastsInDim S4x1x160 (![0, 2] : Fin 2 → Fin S4x1x160.rank)
  bcast_S4x1x160_S4x131072x160_0_1_2 : S4x1x160.BroadcastsInDim S4x131072x160 (![0, 1, 2] : Fin 3 → Fin S4x131072x160.rank)
  bcast_S_S4x131072x160 : S_.BroadcastsInDim S4x131072x160 (![] : Fin 0 → Fin S4x131072x160.rank)
  bcast_S4x128_S4x1x128_0_2 : S4x128.BroadcastsInDim S4x1x128 (![0, 2] : Fin 2 → Fin S4x1x128.rank)
  bcast_S4x1x128_S4x131072x128_0_1_2 : S4x1x128.BroadcastsInDim S4x131072x128 (![0, 1, 2] : Fin 3 → Fin S4x131072x128.rank)
  bcast_S_S4x131072x128 : S_.BroadcastsInDim S4x131072x128 (![] : Fin 0 → Fin S4x131072x128.rank)
  bcast_S4x96_S4x1x96_0_2 : S4x96.BroadcastsInDim S4x1x96 (![0, 2] : Fin 2 → Fin S4x1x96.rank)
  bcast_S4x1x96_S4x131072x96_0_1_2 : S4x1x96.BroadcastsInDim S4x131072x96 (![0, 1, 2] : Fin 3 → Fin S4x131072x96.rank)
  bcast_S_S4x131072x96 : S_.BroadcastsInDim S4x131072x96 (![] : Fin 0 → Fin S4x131072x96.rank)
  bcast_S4x1_S4x1x1_0_2 : S4x1.BroadcastsInDim S4x1x1 (![0, 2] : Fin 2 → Fin S4x1x1.rank)
  bcast_S4x1x1_S4x131072x1_0_1_2 : S4x1x1.BroadcastsInDim S4x131072x1 (![0, 1, 2] : Fin 3 → Fin S4x131072x1.rank)
  shapeCasts_S4x131072x1_S4x131072 : S4x131072x1.ShapeCasts S4x131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  shapeCasts_S131072_S4096x32 : S131072.ShapeCasts S4096x32
  reducesTo_S4096x32_S4096_d1 : S4096x32.ReducesTo [1] S4096
  h_S_ : 0 < S_.numel
  dot_S4x131072x384_S4x384x160_S4x131072x160_2_1_1_2_0_0_wf : DotDims.WF S4x131072x384 S4x384x160 S4x131072x160 [2] [1] [1] [2] [0] [0]
  dot_S4x131072x160_S4x160x128_S4x131072x128_2_1_1_2_0_0_wf : DotDims.WF S4x131072x160 S4x160x128 S4x131072x128 [2] [1] [1] [2] [0] [0]
  dot_S4x131072x128_S4x128x96_S4x131072x96_2_1_1_2_0_0_wf : DotDims.WF S4x131072x128 S4x128x96 S4x131072x96 [2] [1] [1] [2] [0] [0]
  dot_S4x131072x96_S4x96x1_S4x131072x1_2_1_1_2_0_0_wf : DotDims.WF S4x131072x96 S4x96x1 S4x131072x1 [2] [1] [1] [2] [0] [0]
  gather_S4x131072_S131072x2_S131072_n_01_n_n_01_1_11_wf : GatherDims.WF S4x131072 S131072x2 S131072 [] [0, 1] [] [0, 1] [] 1 ![1, 1]

variable [Facts₀]

def dot_S4x131072x384_S4x384x160_S4x131072x160_2_1_1_2_0_0 : DotDims S4x131072x384 S4x384x160 S4x131072x160 where
  lhsContracting := [2]
  rhsContracting := [1]
  lhsNonContracting := [1]
  rhsNonContracting := [2]
  lhsBatch := [0]
  rhsBatch := [0]
  wf := dot_S4x131072x384_S4x384x160_S4x131072x160_2_1_1_2_0_0_wf
def dot_S4x131072x160_S4x160x128_S4x131072x128_2_1_1_2_0_0 : DotDims S4x131072x160 S4x160x128 S4x131072x128 where
  lhsContracting := [2]
  rhsContracting := [1]
  lhsNonContracting := [1]
  rhsNonContracting := [2]
  lhsBatch := [0]
  rhsBatch := [0]
  wf := dot_S4x131072x160_S4x160x128_S4x131072x128_2_1_1_2_0_0_wf
def dot_S4x131072x128_S4x128x96_S4x131072x96_2_1_1_2_0_0 : DotDims S4x131072x128 S4x128x96 S4x131072x96 where
  lhsContracting := [2]
  rhsContracting := [1]
  lhsNonContracting := [1]
  rhsNonContracting := [2]
  lhsBatch := [0]
  rhsBatch := [0]
  wf := dot_S4x131072x128_S4x128x96_S4x131072x96_2_1_1_2_0_0_wf
def dot_S4x131072x96_S4x96x1_S4x131072x1_2_1_1_2_0_0 : DotDims S4x131072x96 S4x96x1 S4x131072x1 where
  lhsContracting := [2]
  rhsContracting := [1]
  lhsNonContracting := [1]
  rhsNonContracting := [2]
  lhsBatch := [0]
  rhsBatch := [0]
  wf := dot_S4x131072x96_S4x96x1_S4x131072x1_2_1_1_2_0_0_wf
def gather_S4x131072_S131072x2_S131072_n_01_n_n_01_1_11 : GatherDims S4x131072 S131072x2 S131072 where
  offsetDims := []
  collapsedSliceDims := [0, 1]
  operandBatchingDims := []
  startIndicesBatchingDims := []
  startIndexMap := [0, 1]
  indexVectorDim := 1
  sliceSizes := ![1, 1]
  wf := gather_S4x131072_S131072x2_S131072_n_01_n_n_01_1_11_wf

class Facts : Prop extends Facts₀ where

variable [Facts]
-- ==== Proof.PreDecode.lean ====
/-
  What the precondition says about the species words: none is negative.
-/
import proofs.«419645_j25383256719857_3_alg».proof.Pre_finite_inputs
import proofs.«419645_j25383256719857_3_alg».proof.Proof.Gen.Pre_finite_inputs
import Idealize.ShloMosaic.PureOps.Ideal
import Idealize.ShloMosaic.Lib.ReduceAll
import Idealize.ShloMosaic.Lib.StableHlo.Predicate

noncomputable section

namespace Cert.PreDecode

open Cert.Pre_finite_inputs Idealize.ShloMosaic

/-- The rank-0 shape has exactly one index (there is no axis to choose a coordinate on). -/
private theorem subsingleton_scalar_idx : Subsingleton S_.Idx := ⟨fun a b => funext fun d => d.elim0⟩

/-- The 32-bit zero word reads 0 as a signed integer. -/
private theorem toInt_zero32 : (0#32 : BitVec 32).toInt = 0 := by decide

/-- The printed precondition, all ones, gives: every species word, read as a signed integer, is at least 0 (its last
    conjunct is the all-reduce of the signed comparison species ≥ 0). -/
theorem species_nonneg [Cert.Pre_finite_inputs.Facts]
    (x0 : IVec S4096x32 32) (x1 : FVec Ideal S4096x32x384 .f32) (x2 : FVec Ideal S4x384x160 .f32)
    (x3 : FVec Ideal S4x160 .f32) (x4 : FVec Ideal S4x160x128 .f32) (x5 : FVec Ideal S4x128 .f32)
    (x6 : FVec Ideal S4x128x96 .f32) (x7 : FVec Ideal S4x96 .f32) (x8 : FVec Ideal S4x96x1 .f32)
    (x9 : FVec Ideal S4x1 .f32)
    (h : Cert.Pre_finite_inputs.fn (F := Ideal) x0 x1 x2 x3 x4 x5 x6 x7 x8 x9 = fun _ => 1#1) :
    ∀ i : S4096x32.Idx, 0 ≤ (x0 i).toInt := by
  intro i
  -- the result has one index; read the equation of functions there
  have h0 := congrFun h (fun d => d.elim0)
  -- the precondition is a chain of one-bit conjunctions whose last operand is the all-reduce of (species ≥ 0)
  dsimp only [fn, fn_part1, fn_part2] at h0
  -- a conjunction of one-bit words is 1 only if both are: keep the last conjunct
  have h1 := (IntOp.andi_eq_one.1 h0).2
  -- an all-reduce by conjunction that is 1 met a 1 at every index of its operand
  haveI : Subsingleton S_.Idx := subsingleton_scalar_idx
  have h2 := Host.reduce_andi_all _ _ _ _ _ h1 i
  -- at index i the operand compares the species word (signed, ≥) with the broadcast constant 0
  have h3 : (0#32 : BitVec 32).toInt ≤ (x0 i).toInt := IntOp.cmpi_sge.1 h2
  rw [toInt_zero32] at h3
  exact h3

end Cert.PreDecode

end
-- ==== Proof.Spec.lean ====
/-
  The mathematics both programs compute, stated once over plain functions of extended reals.

  A molecule-energy network with four "experts" (one small multilayer perceptron per atomic species): every atom n
  carries a feature row of 384 extended reals and a species word; its energy is the perceptron of the expert its
  species selects applied to its row: three dense layers 384 → 160 → 128 → 96, each followed by the activation CELU
  with slope constant α (the binary32 word of 0.1, the same word in both programs, never evaluated), and a last dense
  layer 96 → 1. The expert an atom selects is its species word read as a signed integer and clamped into [0, 3].
  The two programs then sum the per-atom energies over the 32 atoms of each molecule by the same host operations.

  Nothing here is about either program's text: this module imports only the library.
-/
import Idealize.ShloMosaic.PureOps.Ideal
import Idealize.ShloMosaic.PureOps.Ideal.Laws
import Idealize.ShloMosaic.Lib.ValueIdx

noncomputable section

namespace Cert.MoE

open Idealize.ShloMosaic Idealize.ShloMosaic.ValueIdx

/-- The activation's slope constant: the binary32 word both programs carry for 0.1. -/
abbrev alpha : EReal := Ideal.ofBits .f32 0x3DCCCCCD#32

/-- The binary32 word of 1.0 denotes the real 1. -/
theorem ofBits_one_f32 : Ideal.ofBits .f32 0x3F800000#32 = 1 := by
  simp [Ideal.ofBits, Ideal.ieee, -EReal.coe_mul]; norm_num

/-- CELU with slope α, spelt with a case split on the sign: x above zero, α·(exp(x/α) − 1) otherwise. -/
def celu (x : EReal) : EReal := if 0 < x then x else alpha * (Ideal.exp (Ideal.div x alpha) - 1)

/-- exp 0 = 1 on the extended reals. -/
theorem exp_zero : Ideal.exp 0 = 1 := by
  have h : Ideal.exp ((0 : ℝ) : EReal) = ((Real.exp 0 : ℝ) : EReal) := rfl
  rw [← EReal.coe_zero, h, Real.exp_zero, EReal.coe_one]

/-- 1 − 1 = 0 on the extended reals (both are real). -/
theorem one_sub_one : (1 : EReal) - 1 = 0 := by
  show ((1 : ℝ) : EReal) - ((1 : ℝ) : EReal) = 0
  rw [← EReal.coe_sub]; simp

/-- The other spelling of CELU, max(x, 0) + α·(exp(min(x, 0)/α) − 1), is the same function on every extended real:
    above zero the second summand is α·(exp(0/α) − 1), which is 0 whatever α is (0/α is 0 off α = 0, and at α = 0 the
    factor α itself kills the product); at or below zero the first summand is 0. -/
theorem celu_maxmin (x : EReal) :
    max x 0 + alpha * (Ideal.exp (Ideal.div (min x 0) alpha) - 1) = celu x := by
  unfold celu
  by_cases h : 0 < x
  · rw [if_pos h, max_eq_left h.le, min_eq_right h.le]
    have hz : alpha * (Ideal.exp (Ideal.div 0 alpha) - 1) = 0 := by
      by_cases ha : alpha = 0
      · rw [ha, zero_mul]
      · have hd : Ideal.div 0 alpha = 0 := by
          unfold Ideal.div; rw [if_neg ha, zero_mul]
        rw [hd, exp_zero, one_sub_one, mul_zero]
    rw [hz, add_zero]
  · rw [if_neg h]
    have hx : x ≤ 0 := not_lt.mp h
    rw [max_eq_right hx, min_eq_left hx, zero_add]

/-- One dense layer at one row: output feature c is Σ_k x k · W k c + b c. -/
def dense {K C : Nat} (x : Fin K → EReal) (W : Fin K → Fin C → EReal) (b : Fin C → EReal) (c : Fin C) : EReal :=
  (∑ k : Fin K, x k * W k c) + b c

/-- The perceptron of one expert at one atom's feature row: three activated dense layers and a last one into a
    scalar. -/
def energy (x : Fin 384 → EReal)
    (W1 : Fin 384 → Fin 160 → EReal) (b1 : Fin 160 → EReal)
    (W2 : Fin 160 → Fin 128 → EReal) (b2 : Fin 128 → EReal)
    (W3 : Fin 128 → Fin 96 → EReal) (b3 : Fin 96 → EReal)
    (W4 : Fin 96 → EReal) (b4 : EReal) : EReal :=
  (∑ k : Fin 96,
      celu (dense (fun j => celu (dense (fun i => celu (dense x W1 b1 i)) W2 b2 j)) W3 b3 k) * W4 k) + b4

/-- The expert a species word selects: the word as a signed integer, clamped into [0, 3]. -/
def expertOf (s : BitVec 32) : Fin 4 := ⟨min s.toInt.toNat 3, by omega⟩

/-- The shapes of the flattened arrays, spelt out (each program's own shape abbreviations unfold to these). -/
abbrev Atoms : Shape := ⟨1, ![131072]⟩
abbrev AtomRows : Shape := ⟨2, ![131072, 384]⟩

/-- THE PER-ATOM ENERGIES as one function of the flattened species words, the flattened feature rows and the four
    experts' stacked weights: atom n gets the perceptron of the expert its species word selects, at its row. -/
def perAtom (sp : Atoms.Idx → BitVec 32) (x : AtomRows.Idx → EReal)
    (W1 : (⟨3, ![4, 384, 160]⟩ : Shape).Idx → EReal) (b1 : (⟨2, ![4, 160]⟩ : Shape).Idx → EReal)
    (W2 : (⟨3, ![4, 160, 128]⟩ : Shape).Idx → EReal) (b2 : (⟨2, ![4, 128]⟩ : Shape).Idx → EReal)
    (W3 : (⟨3, ![4, 128, 96]⟩ : Shape).Idx → EReal) (b3 : (⟨2, ![4, 96]⟩ : Shape).Idx → EReal)
    (W4 : (⟨3, ![4, 96, 1]⟩ : Shape).Idx → EReal) (b4 : (⟨2, ![4, 1]⟩ : Shape).Idx → EReal) :
    Atoms.Idx → EReal := fun n =>
  energy (fun k => x (ix2 (n 0) k))
    (fun k c => W1 (ix3 (expertOf (sp n)) k c)) (fun c => b1 (ix2 (expertOf (sp n)) c))
    (fun k c => W2 (ix3 (expertOf (sp n)) k c)) (fun c => b2 (ix2 (expertOf (sp n)) c))
    (fun k c => W3 (ix3 (expertOf (sp n)) k c)) (fun c => b3 (ix2 (expertOf (sp n)) c))
    (fun k => W4 (ix3 (expertOf (sp n)) k 0)) (b4 (ix2 (expertOf (sp n)) 0))

end Cert.MoE

end
-- ==== Proof.RefPerAtom.lean ====
/-
  The reference's per-atom energies are the specification's.

  The reference computes, for every expert e and every atom p, the expert's perceptron at the atom's feature row
  (a 4 × 131072 table), and then gathers, for atom p, the table's entry at (species word of p, p). This module
  reads the gather and the concatenation that builds its index pairs at an index, shows that under the
  precondition the pair at atom p is (species word, p) up to the clamp the specification's expert selection
  already has, reads the table layer by layer as the specification's dense layers and CELU activations, and
  composes.
-/
import proofs.«419645_j25383256719857_3_alg».proof.Proof.Gen.ReferenceIdeal.Read
import proofs.«419645_j25383256719857_3_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- The two-index gather read at atom p: both operand axes are collapsed and named by the start index map, so the
    element read is the table at the two start components, each read signed and clamped into its axis. -/
theorem gather_pair_apply {α : Type} {w : Nat} (x : S4x131072.Idx → α) (idx : IVec S131072x2 w) (p : Fin 131072) :
    Host.gather gather_S4x131072_S131072x2_S131072_n_01_n_n_01_1_11 x idx (ix1 p)
      = x (ix2 (⟨min (idx (ix2 p (0 : Fin 2))).toInt.toNat 3, by omega⟩ : Fin 4)
               (⟨min (idx (ix2 p (1 : Fin 2))).toInt.toNat 131071, by omega⟩ : Fin 131072)) := by
  unfold Host.gather
  congr 1
  funext a
  refine Fin.ext ?_
  match a with
  | ⟨0, _⟩ =>
    show gather_S4x131072_S131072x2_S131072_n_01_n_n_01_1_11.start (ix1 p) idx 0
        + gather_S4x131072_S131072x2_S131072_n_01_n_n_01_1_11.batchCoord (ix1 p) 0
        + gather_S4x131072_S131072x2_S131072_n_01_n_n_01_1_11.offCoord (ix1 p) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S4x131072_S131072x2_S131072_n_01_n_n_01_1_11.startIndexMap by decide)]
    have hsi : gather_S4x131072_S131072x2_S131072_n_01_n_n_01_1_11.siIdx (ix1 p)
        ⟨List.idxOf (0 : Fin 2) gather_S4x131072_S131072x2_S131072_n_01_n_n_01_1_11.startIndexMap,
          List.idxOf_lt_length_iff.2 (by decide)⟩ = ix2 p (0 : Fin 2) := by
      funext b; refine Fin.ext ?_
      match b with
      | ⟨0, _⟩ => rfl
      | ⟨1, _⟩ => rfl
    rw [hsi]
    rfl
  | ⟨1, _⟩ =>
    show gather_S4x131072_S131072x2_S131072_n_01_n_n_01_1_11.start (ix1 p) idx 1
        + gather_S4x131072_S131072x2_S131072_n_01_n_n_01_1_11.batchCoord (ix1 p) 1
        + gather_S4x131072_S131072x2_S131072_n_01_n_n_01_1_11.offCoord (ix1 p) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S4x131072_S131072x2_S131072_n_01_n_n_01_1_11.startIndexMap by decide)]
    have hsi : gather_S4x131072_S131072x2_S131072_n_01_n_n_01_1_11.siIdx (ix1 p)
        ⟨List.idxOf (1 : Fin 2) gather_S4x131072_S131072x2_S131072_n_01_n_n_01_1_11.startIndexMap,
          List.idxOf_lt_length_iff.2 (by decide)⟩ = ix2 p (1 : Fin 2) := by
      funext b; refine Fin.ext ?_
      match b with
      | ⟨0, _⟩ => rfl
      | ⟨1, _⟩ => rfl
    rw [hsi]
    rfl

/-- The index array's first column is the select-normalised species column: the concatenation along axis 1 reads its
    first piece where the axis-1 coordinate is 0. -/
theorem pairs_col0 (x0 : (⟨S4096x32, .i32⟩ : BufTy).Contents (Elt Ideal)) (p : Fin 131072) :
    val_main_v37 (F := Ideal) x0 (ix2 p (0 : Fin 2)) = val_main_v35 (F := Ideal) x0 (ix2 p (0 : Fin 1)) := by
  unfold val_main_v37
  exact concatenate_pair_apply_left (1 : Fin S131072x2.rank) _ _ concatenates_S131072x1_S131072x1_S131072x2_d1
    (ix2 p (0 : Fin 2)) rfl (ix2 p (0 : Fin 1)) (fun b => by match b with | ⟨0, _⟩ => rfl | ⟨1, _⟩ => rfl)

/-- The index array's second column is the normalised position column: the concatenation reads its second piece where
    the axis-1 coordinate is 1, at that coordinate less the first piece's extent 1. -/
theorem pairs_col1 (x0 : (⟨S4096x32, .i32⟩ : BufTy).Contents (Elt Ideal)) (p : Fin 131072) :
    val_main_v37 (F := Ideal) x0 (ix2 p (1 : Fin 2)) = val_main_v36 (F := Ideal) (ix2 p (0 : Fin 1)) := by
  unfold val_main_v37
  exact concatenate_pair_apply_right (1 : Fin S131072x2.rank) _ _ concatenates_S131072x1_S131072x1_S131072x2_d1
    (ix2 p (1 : Fin 2)) rfl rfl (ix2 p (0 : Fin 1))
    (fun b hb => by match b, hb with | ⟨0, _⟩, _ => rfl | ⟨1, _⟩, hb => exact absurd rfl hb) rfl

/-- A word that is not negative is not below zero in the signed order: the comparison's bit is 0. -/
theorem slt_zero_of_nonneg (s : BitVec 32) (h : 0 ≤ s.toInt) : IntOp.cmpi .slt s 0#32 = 0#1 := by
  have hf : s.slt 0#32 = false := by
    simp only [BitVec.slt, BitVec.toInt_zero, decide_eq_false_iff_not, not_lt]; exact h
  show BitVec.ofBool (s.slt 0#32) = 0#1
  rw [hf]; rfl

/-- A position below 131072 as a 32-bit word reads back, signed, as itself. -/
theorem toInt_ofNat_pos (p : Fin 131072) : (BitVec.ofNat 32 p.val).toInt = (p.val : Int) := by
  have hp := p.isLt
  have hn : (BitVec.ofNat 32 p.val).toNat = p.val := by
    rw [BitVec.toNat_ofNat]; exact Nat.mod_eq_of_lt (by omega)
  rw [BitVec.toInt_eq_toNat_of_lt (by rw [hn]; omega), hn]

/-- The species column at atom p is the flattened species word itself when no species word is negative: the
    wrap-around select keeps its third operand. -/
theorem species_col (x0 : (⟨S4096x32, .i32⟩ : BufTy).Contents (Elt Ideal)) (hs : ∀ i : S4096x32.Idx, 0 ≤ (x0 i).toInt)
    (p : Fin 131072) :
    val_main_v35 (F := Ideal) x0 (ix2 p (0 : Fin 1)) = val_main_v0 (F := Ideal) x0 (ix1 p) := by
  have ei : idx_main_v35 (ix2 p (0 : Fin 1)) = ix1 p := funext fun a => Fin.ext (by match a with | ⟨0, _⟩ => rfl)
  have h0 : 0 ≤ (val_main_v0 (F := Ideal) x0 (ix1 p)).toInt := by rw [val_main_v0_apply]; exact hs _
  rw [val_main_v35_apply, ei, val_main_v29_apply, val_main_v26_apply, val_main_v25_apply, val_main_c_apply,
    slt_zero_of_nonneg _ h0, select_zero]

/-- The position column at atom p is the word of p: a position is never negative, so the wrap-around select keeps the
    iota. -/
theorem position_col (p : Fin 131072) :
    val_main_v36 (F := Ideal) (ix2 p (0 : Fin 1)) = BitVec.ofNat 32 p.val := by
  have ei : idx_main_v36 (ix2 p (0 : Fin 1)) = ix1 p := funext fun a => Fin.ext (by match a with | ⟨0, _⟩ => rfl)
  have h0 : 0 ≤ (BitVec.ofNat 32 p.val).toInt := by rw [toInt_ofNat_pos]; omega
  rw [val_main_v36_apply, ei, val_main_v34_apply, val_main_v31_apply, val_main_v24_apply, val_main_v30_apply,
    val_main_c_3_apply]
  show Scalar.select (IntOp.cmpi .slt (BitVec.ofNat 32 p.val) 0#32) _ (BitVec.ofNat 32 p.val) = _
  rw [slt_zero_of_nonneg _ h0, select_zero]

section Layers

variable (x1 : (⟨S4096x32x384, .f32⟩ : BufTy).Contents (Elt Ideal))
  (x2 : (⟨S4x384x160, .f32⟩ : BufTy).Contents (Elt Ideal)) (x3 : (⟨S4x160, .f32⟩ : BufTy).Contents (Elt Ideal))
  (x4 : (⟨S4x160x128, .f32⟩ : BufTy).Contents (Elt Ideal)) (x5 : (⟨S4x128, .f32⟩ : BufTy).Contents (Elt Ideal))
  (x6 : (⟨S4x128x96, .f32⟩ : BufTy).Contents (Elt Ideal)) (x7 : (⟨S4x96, .f32⟩ : BufTy).Contents (Elt Ideal))
  (x8 : (⟨S4x96x1, .f32⟩ : BufTy).Contents (Elt Ideal)) (x9 : (⟨S4x1, .f32⟩ : BufTy).Contents (Elt Ideal))

/-- First dense layer: the stage after the bias add, at expert e, atom p and output feature c, is the dense layer of
    the atom's flattened feature row under expert e's weights and bias. The two feature broadcasts read the flattened
    features at (p, k); the bias broadcasts read the bias at (e, c). -/
theorem dense1_apply (e : Fin 4) (p : Fin 131072) (c : Fin 160) :
    val_main_v7 (F := Ideal) x1 x2 x3 (ix3 e p c)
      = Cert.MoE.dense (fun k : Fin 384 => val_main_v1 (F := Ideal) x1 (ix2 p k))
          (fun (k : Fin 384) (c : Fin 160) => x2 (ix3 e k c)) (fun c : Fin 160 => x3 (ix2 e c)) c := by
  have el : ∀ k : Fin 384, idx_main_v2 (idx_main_v3 (lidx_main_v4 (ix3 e p c) k)) = ix2 p k := fun k =>
    funext fun a => Fin.ext (by match a with | ⟨0, _⟩ => rfl | ⟨1, _⟩ => rfl)
  have er : ∀ k : Fin 384, ridx_main_v4 (ix3 e p c) k = ix3 e k c := fun k =>
    funext fun a => Fin.ext (by match a with | ⟨0, _⟩ => rfl | ⟨1, _⟩ => rfl | ⟨2, _⟩ => rfl)
  have eb : idx_main_v5 (idx_main_v6 (ix3 e p c)) = ix2 e c :=
    funext fun a => Fin.ext (by match a with | ⟨0, _⟩ => rfl | ⟨1, _⟩ => rfl)
  unfold Cert.MoE.dense
  rw [val_main_v7_apply, val_main_v4_apply, val_main_v6_apply, val_main_v5_apply, eb, Ideal.addf_def]
  simp only [val_main_v3_apply, val_main_v2_apply, el, er]

/-- First activation: the eleven stages of the called function compose, index by index, to
    max(h, 0) + α·(exp(min(h, 0)/α) − 1), which is CELU of h. -/
theorem celu1_apply (i : S4x131072x160.Idx) :
    val_main_v8 (F := Ideal) x1 x2 x3 i = Cert.MoE.celu (val_main_v7 (F := Ideal) x1 x2 x3 i) := by
  simp only [val_main_v8_apply, val_main_call0_v1_apply, val_main_call0_v10_apply, val_main_call0_v9_apply,
    val_main_call0_v8_apply, val_main_call0_v7_apply, val_main_call0_v6_apply, val_main_call0_v5_apply,
    val_main_call0_v4_apply, val_main_call0_v3_apply, val_main_call0_v2_apply, val_main_call0_v0_apply,
    val_main_call0_cst_apply, val_main_call0_cst_0_apply, val_main_cst_apply]
  generalize val_main_v7 (F := Ideal) x1 x2 x3 i = h
  simp only [Ideal.addf_def, Ideal.maximumf_def, Ideal.minimumf_def, Ideal.mulf_def, Ideal.hostDivf_def,
    Ideal.hostUnary_expm1_def, Ideal.ofBits_def, Ideal.ofBits_zero_f32]
  exact Cert.MoE.celu_maxmin h

/-- Second dense layer at (e, p, c): the dense layer of the first activated stage's row at (e, p). -/
theorem dense2_apply (e : Fin 4) (p : Fin 131072) (c : Fin 128) :
    val_main_v12 (F := Ideal) x1 x2 x3 x4 x5 (ix3 e p c)
      = Cert.MoE.dense (fun k : Fin 160 => val_main_v8 (F := Ideal) x1 x2 x3 (ix3 e p k))
          (fun (k : Fin 160) (c : Fin 128) => x4 (ix3 e k c)) (fun c : Fin 128 => x5 (ix2 e c)) c := by
  have el : ∀ k : Fin 160, lidx_main_v9 (ix3 e p c) k = ix3 e p k := fun k =>
    funext fun a => Fin.ext (by match a with | ⟨0, _⟩ => rfl | ⟨1, _⟩ => rfl | ⟨2, _⟩ => rfl)
  have er : ∀ k : Fin 160, ridx_main_v9 (ix3 e p c) k = ix3 e k c := fun k =>
    funext fun a => Fin.ext (by match a with | ⟨0, _⟩ => rfl | ⟨1, _⟩ => rfl | ⟨2, _⟩ => rfl)
  have eb : idx_main_v10 (idx_main_v11 (ix3 e p c)) = ix2 e c :=
    funext fun a => Fin.ext (by match a with | ⟨0, _⟩ => rfl | ⟨1, _⟩ => rfl)
  unfold Cert.MoE.dense
  rw [val_main_v12_apply, val_main_v9_apply, val_main_v11_apply, val_main_v10_apply, eb, Ideal.addf_def]
  simp only [el, er]

/-- Second activation: CELU of the second dense stage, index by index. -/
theorem celu2_apply (i : S4x131072x128.Idx) :
    val_main_v13 (F := Ideal) x1 x2 x3 x4 x5 i = Cert.MoE.celu (val_main_v12 (F := Ideal) x1 x2 x3 x4 x5 i) := by
  simp only [val_main_v13_apply, val_main_call1_v1_apply, val_main_call1_v10_apply, val_main_call1_v9_apply,
    val_main_call1_v8_apply, val_main_call1_v7_apply, val_main_call1_v6_apply, val_main_call1_v5_apply,
    val_main_call1_v4_apply, val_main_call1_v3_apply, val_main_call1_v2_apply, val_main_call1_v0_apply,
    val_main_call1_cst_apply, val_main_call1_cst_0_apply, val_main_cst_0_apply]
  generalize val_main_v12 (F := Ideal) x1 x2 x3 x4 x5 i = h
  simp only [Ideal.addf_def, Ideal.maximumf_def, Ideal.minimumf_def, Ideal.mulf_def, Ideal.hostDivf_def,
    Ideal.hostUnary_expm1_def, Ideal.ofBits_def, Ideal.ofBits_zero_f32]
  exact Cert.MoE.celu_maxmin h

/-- Third dense layer at (e, p, c): the dense layer of the second activated stage's row at (e, p). -/
theorem dense3_apply (e : Fin 4) (p : Fin 131072) (c : Fin 96) :
    val_main_v17 (F := Ideal) x1 x2 x3 x4 x5 x6 x7 (ix3 e p c)
      = Cert.MoE.dense (fun k : Fin 128 => val_main_v13 (F := Ideal) x1 x2 x3 x4 x5 (ix3 e p k))
          (fun (k : Fin 128) (c : Fin 96) => x6 (ix3 e k c)) (fun c : Fin 96 => x7 (ix2 e c)) c := by
  have el : ∀ k : Fin 128, lidx_main_v14 (ix3 e p c) k = ix3 e p k := fun k =>
    funext fun a => Fin.ext (by match a with | ⟨0, _⟩ => rfl | ⟨1, _⟩ => rfl | ⟨2, _⟩ => rfl)
  have er : ∀ k : Fin 128, ridx_main_v14 (ix3 e p c) k = ix3 e k c := fun k =>
    funext fun a => Fin.ext (by match a with | ⟨0, _⟩ => rfl | ⟨1, _⟩ => rfl | ⟨2, _⟩ => rfl)
  have eb : idx_main_v15 (idx_main_v16 (ix3 e p c)) = ix2 e c :=
    funext fun a => Fin.ext (by match a with | ⟨0, _⟩ => rfl | ⟨1, _⟩ => rfl)
  unfold Cert.MoE.dense
  rw [val_main_v17_apply, val_main_v14_apply, val_main_v16_apply, val_main_v15_apply, eb, Ideal.addf_def]
  simp only [el, er]

/-- Third activation: CELU of the third dense stage, index by index. -/
theorem celu3_apply (i : S4x131072x96.Idx) :
    val_main_v18 (F := Ideal) x1 x2 x3 x4 x5 x6 x7 i
      = Cert.MoE.celu (val_main_v17 (F := Ideal) x1 x2 x3 x4 x5 x6 x7 i) := by
  simp only [val_main_v18_apply, val_main_call2_v1_apply, val_main_call2_v10_apply, val_main_call2_v9_apply,
    val_main_call2_v8_apply, val_main_call2_v7_apply, val_main_call2_v6_apply, val_main_call2_v5_apply,
    val_main_call2_v4_apply, val_main_call2_v3_apply, val_main_call2_v2_apply, val_main_call2_v0_apply,
    val_main_call2_cst_apply, val_main_call2_cst_0_apply, val_main_cst_1_apply]
  generalize val_main_v17 (F := Ideal) x1 x2 x3 x4 x5 x6 x7 i = h
  simp only [Ideal.addf_def, Ideal.maximumf_def, Ideal.minimumf_def, Ideal.mulf_def, Ideal.hostDivf_def,
    Ideal.hostUnary_expm1_def, Ideal.ofBits_def, Ideal.ofBits_zero_f32]
  exact Cert.MoE.celu_maxmin h

/-- The last dense layer and the reshape: the energy table at (e, p) is the sum over the 96 activated features of
    feature times weight, plus expert e's scalar bias. The reshape drops the unit axis: (e, p) reads (e, p, 0). -/
theorem table_apply (e : Fin 4) (p : Fin 131072) :
    val_main_v23 (F := Ideal) x1 x2 x3 x4 x5 x6 x7 x8 x9 (ix2 e p)
      = (∑ k : Fin 96, val_main_v18 (F := Ideal) x1 x2 x3 x4 x5 x6 x7 (ix3 e p k) * x8 (ix3 e k (0 : Fin 1)))
          + x9 (ix2 e (0 : Fin 1)) := by
  have e23 : idx_main_v23 (ix2 e p) = ix3 e p (0 : Fin 1) := funext fun a => Fin.ext (by
    have he := e.isLt; have hp := p.isLt
    match a with
    | ⟨0, _⟩ => show (e.val * 131072 + p.val) / 131072 = e.val; omega
    | ⟨1, _⟩ => show (e.val * 131072 + p.val) / 1 % 131072 = p.val; omega
    | ⟨2, _⟩ => rfl)
  have el : ∀ k : Fin 96, lidx_main_v19 (ix3 e p (0 : Fin 1)) k = ix3 e p k := fun k =>
    funext fun a => Fin.ext (by match a with | ⟨0, _⟩ => rfl | ⟨1, _⟩ => rfl | ⟨2, _⟩ => rfl)
  have er : ∀ k : Fin 96, ridx_main_v19 (ix3 e p (0 : Fin 1)) k = ix3 e k (0 : Fin 1) := fun k =>
    funext fun a => Fin.ext (by match a with | ⟨0, _⟩ => rfl | ⟨1, _⟩ => rfl | ⟨2, _⟩ => rfl)
  have eb : idx_main_v20 (idx_main_v21 (ix3 e p (0 : Fin 1))) = ix2 e (0 : Fin 1) :=
    funext fun a => Fin.ext (by match a with | ⟨0, _⟩ => rfl | ⟨1, _⟩ => rfl)
  rw [val_main_v23_apply, e23, val_main_v22_apply, val_main_v19_apply, val_main_v21_apply, val_main_v20_apply, eb,
    Ideal.addf_def]
  simp only [el, er]

/-- The gather at atom p reads the energy table at (the expert the atom's species word selects, p): the first start
    component is the species word (not negative, so the wrap-around select leaves it), clamped into [0, 3] exactly as
    the specification's expert selection clamps it; the second is the word of p, which reads back as p and is already
    inside [0, 131071]. -/
theorem gathered_apply (x0 : (⟨S4096x32, .i32⟩ : BufTy).Contents (Elt Ideal))
    (hs : ∀ i : S4096x32.Idx, 0 ≤ (x0 i).toInt) (p : Fin 131072) :
    val_main_v38 (F := Ideal) x0 x1 x2 x3 x4 x5 x6 x7 x8 x9 (ix1 p)
      = val_main_v23 (F := Ideal) x1 x2 x3 x4 x5 x6 x7 x8 x9
          (ix2 (Cert.MoE.expertOf (val_main_v0 (F := Ideal) x0 (ix1 p))) p) := by
  unfold val_main_v38
  generalize val_main_v23 (F := Ideal) x1 x2 x3 x4 x5 x6 x7 x8 x9 = T
  rw [gather_pair_apply]
  refine congrArg T (funext fun a => Fin.ext ?_)
  match a with
  | ⟨0, _⟩ =>
    show min (val_main_v37 (F := Ideal) x0 (ix2 p (0 : Fin 2))).toInt.toNat 3
        = min (val_main_v0 (F := Ideal) x0 (ix1 p)).toInt.toNat 3
    rw [pairs_col0, species_col x0 hs]
  | ⟨1, _⟩ =>
    show min (val_main_v37 (F := Ideal) x0 (ix2 p (1 : Fin 2))).toInt.toNat 131071 = p.val
    rw [pairs_col1, position_col, toInt_ofNat_pos, Int.toNat_natCast]
    exact Nat.min_eq_left (by have := p.isLt; omega)

end Layers

/-- The array the reference gathers (stage main_v38: the expert-by-atom table of energies read at each atom's species
    and its own position) is the specification's per-atom function of the flattened species words (stage main_v0) and
    the flattened feature rows (stage main_v1), when no species word is negative. -/
theorem ref_perAtom
    (x0 : (⟨S4096x32, .i32⟩ : BufTy).Contents (Elt Ideal)) (x1 : (⟨S4096x32x384, .f32⟩ : BufTy).Contents (Elt Ideal))
    (x2 : (⟨S4x384x160, .f32⟩ : BufTy).Contents (Elt Ideal)) (x3 : (⟨S4x160, .f32⟩ : BufTy).Contents (Elt Ideal))
    (x4 : (⟨S4x160x128, .f32⟩ : BufTy).Contents (Elt Ideal)) (x5 : (⟨S4x128, .f32⟩ : BufTy).Contents (Elt Ideal))
    (x6 : (⟨S4x128x96, .f32⟩ : BufTy).Contents (Elt Ideal)) (x7 : (⟨S4x96, .f32⟩ : BufTy).Contents (Elt Ideal))
    (x8 : (⟨S4x96x1, .f32⟩ : BufTy).Contents (Elt Ideal)) (x9 : (⟨S4x1, .f32⟩ : BufTy).Contents (Elt Ideal))
    (hs : ∀ i : S4096x32.Idx, 0 ≤ (x0 i).toInt) :
    val_main_v38 (F := Ideal) x0 x1 x2 x3 x4 x5 x6 x7 x8 x9
      = Cert.MoE.perAtom (val_main_v0 (F := Ideal) x0) (val_main_v1 (F := Ideal) x1) x2 x3 x4 x5 x6 x7 x8 x9 := by
  funext n
  obtain ⟨p, rfl⟩ : ∃ p : Fin 131072, n = ix1 p := ⟨n 0, eq_ix1 n⟩
  rw [gathered_apply x1 x2 x3 x4 x5 x6 x7 x8 x9 x0 hs p, table_apply]
  unfold Cert.MoE.perAtom Cert.MoE.energy
  simp only [celu3_apply, dense3_apply, celu2_apply, dense2_apply, celu1_apply, dense1_apply]

end Cert.ReferenceIdeal.RefValue

end
-- ==== Proof.KernelBody.lean ====
/-
  The kernel body's arithmetic, regrouped by what it computes: for a block of 4096 atoms, each of the four experts'
  perceptrons over the whole block (three dense layers on the matrix unit with a bias row and CELU, and a last layer
  done as a lane sum), and the accumulation that keeps, per atom, the expert whose number equals the atom's
  (clipped) species word. Generic in the float instance; the definitions repeat the body's own operations, so the
  body's stored value is their composition by unfolding.
-/
import proofs.«419645_j25383256719857_3_alg».proof.Proof.Gen.KernelIdeal.Frame

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- CELU over a whole vector as the body spells it: where h > 0 keep h, elsewhere α·(exp(h/α) − 1). -/
def celuV {s : Shape} (h : FVec F s .f32) : FVec F s .f32 :=
  select (cmpf .ogt h (broadcast s (Scalar.ofBits .f32 0x00000000#32))) h
    (mulf (broadcast s (Scalar.ofBits .f32 0x3DCCCCCD#32))
      (subf (exp (divf h (broadcast s (Scalar.ofBits .f32 0x3DCCCCCD#32)))) (broadcast s (Scalar.ofBits .f32 0x3F800000#32))))

/-- First dense layer of one expert over the block: rows × (384 → 160), plus the bias row. -/
def dense1V (a : FVec F S4096x384 .bf16) (w : Vec F S1x384x160 .f32) (b : Vec F S1x160 .f32) : FVec F S4096x160 .f32 :=
  addf (matmul dot_S4096x384_S384x160_S4096x160_1_0_0_1_n_n none a
      (truncf .bf16 (shapeCast S384x160 w shapeCasts_S1x384x160_S384x160) bitsLt_bf16_f32) (constant S4096x160 .f32 0x00000000#32))
    (broadcastTo S4096x160 (shapeCast S1x160 (shapeCast S160 b shapeCasts_S1x160_S160) shapeCasts_S160_S1x160) broadcasts_S1x160_S4096x160)

/-- Second dense layer: rows × (160 → 128), plus the bias row. -/
def dense2V (a : FVec F S4096x160 .bf16) (w : Vec F S1x160x128 .f32) (b : Vec F S1x128 .f32) : FVec F S4096x128 .f32 :=
  addf (matmul dot_S4096x160_S160x128_S4096x128_1_0_0_1_n_n none a
      (truncf .bf16 (shapeCast S160x128 w shapeCasts_S1x160x128_S160x128) bitsLt_bf16_f32) (constant S4096x128 .f32 0x00000000#32))
    (broadcastTo S4096x128 (shapeCast S1x128 (shapeCast S128 b shapeCasts_S1x128_S128) shapeCasts_S128_S1x128) broadcasts_S1x128_S4096x128)

/-- Third dense layer: rows × (128 → 96), plus the bias row. -/
def dense3V (a : FVec F S4096x128 .bf16) (w : Vec F S1x128x96 .f32) (b : Vec F S1x96 .f32) : FVec F S4096x96 .f32 :=
  addf (matmul dot_S4096x128_S128x96_S4096x96_1_0_0_1_n_n none a
      (truncf .bf16 (shapeCast S128x96 w shapeCasts_S1x128x96_S128x96) bitsLt_bf16_f32) (constant S4096x96 .f32 0x00000000#32))
    (broadcastTo S4096x96 (shapeCast S1x96 (shapeCast S96 b shapeCasts_S1x96_S96) shapeCasts_S96_S1x96) broadcasts_S1x96_S4096x96)

/-- Last layer (96 → 1) as a product with the weight row and a sum along the lanes, plus the bias. -/
def lastV (h : FVec F S4096x96 .f32) (w : Vec F S1x96x1 .f32) (b : Vec F S1x1 .f32) : FVec F S4096 .f32 :=
  addf (multiReduction .add [1] S4096
      (mulf h (broadcastTo S4096x96 (shapeCast S1x96 (shapeCast S96 (shapeCast S96x1 w shapeCasts_S1x96x1_S96x1) shapeCasts_S96x1_S96) shapeCasts_S96_S1x96) broadcasts_S1x96_S4096x96))
      0x00000000#32 reduces_S4096x96_S4096 (.inl rfl) rfl)
    (broadcastTo S4096 (shapeCast S1 b shapeCasts_S1x1_S1) broadcasts_S1_S4096)

/-- One expert's energies over the block. -/
def expertV (a : FVec F S4096x384 .bf16) (w1 : Vec F S1x384x160 .f32) (b1 : Vec F S1x160 .f32)
    (w2 : Vec F S1x160x128 .f32) (b2 : Vec F S1x128 .f32) (w3 : Vec F S1x128x96 .f32) (b3 : Vec F S1x96 .f32)
    (w4 : Vec F S1x96x1 .f32) (b4 : Vec F S1x1 .f32) : FVec F S4096 .f32 :=
  lastV (celuV (dense3V (truncf .bf16 (celuV (dense2V (truncf .bf16 (celuV (dense1V a w1 b1)) bitsLt_bf16_f32) w2 b2)) bitsLt_bf16_f32) w3 b3)) w4 b4

/-- One step of the accumulation: add expert e's energies where the species word equals e, zero elsewhere. -/
def pickV (s : IVec S4096 32) (e : BitVec 32) (acc out : FVec F S4096 .f32) : FVec F S4096 .f32 :=
  addf acc (select (cmpi .eq s (broadcast S4096 e)) out (broadcast S4096 (Scalar.ofBits .f32 0x00000000#32)))

/-- The whole block: the four experts over the loaded blocks, accumulated from zero. -/
def blockV (x0 : Vec F S4096x384 .f32) (x1 : Vec F S4096 .i32) (x2 : Vec F S4x384x160 .f32) (x3 : Vec F S4x160 .f32)
    (x4 : Vec F S4x160x128 .f32) (x5 : Vec F S4x128 .f32) (x6 : Vec F S4x128x96 .f32) (x7 : Vec F S4x96 .f32)
    (x8 : Vec F S4x96x1 .f32) (x9 : Vec F S4x1 .f32) : FVec F S4096 .f32 :=
  pickV (shapeCast S4096 (View.ld x1 r0_0) shapeCasts_S4096_S4096) 3#32
    (pickV (shapeCast S4096 (View.ld x1 r0_0) shapeCasts_S4096_S4096) 2#32
      (pickV (shapeCast S4096 (View.ld x1 r0_0) shapeCasts_S4096_S4096) 1#32
        (pickV (shapeCast S4096 (View.ld x1 r0_0) shapeCasts_S4096_S4096) 0#32
          (broadcast S4096 (Scalar.ofBits .f32 0x00000000#32))
          (expertV (truncf .bf16 (shapeCast S4096x384 (View.ld x0 r0_1) shapeCasts_S4096x384_S4096x384) bitsLt_bf16_f32)
            (View.ld x2 r0_2) (View.ld x3 r0_3) (View.ld x4 r0_4) (View.ld x5 r0_5) (View.ld x6 r0_6) (View.ld x7 r0_7) (View.ld x8 r0_8) (View.ld x9 r0_9)))
        (expertV (truncf .bf16 (shapeCast S4096x384 (View.ld x0 r0_1) shapeCasts_S4096x384_S4096x384) bitsLt_bf16_f32)
          (View.ld x2 r0_10) (View.ld x3 r0_11) (View.ld x4 r0_12) (View.ld x5 r0_13) (View.ld x6 r0_14) (View.ld x7 r0_15) (View.ld x8 r0_16) (View.ld x9 r0_17)))
      (expertV (truncf .bf16 (shapeCast S4096x384 (View.ld x0 r0_1) shapeCasts_S4096x384_S4096x384) bitsLt_bf16_f32)
        (View.ld x2 r0_18) (View.ld x3 r0_19) (View.ld x4 r0_20) (View.ld x5 r0_21) (View.ld x6 r0_22) (View.ld x7 r0_23) (View.ld x8 r0_24) (View.ld x9 r0_25)))
    (expertV (truncf .bf16 (shapeCast S4096x384 (View.ld x0 r0_1) shapeCasts_S4096x384_S4096x384) bitsLt_bf16_f32)
      (View.ld x2 r0_26) (View.ld x3 r0_27) (View.ld x4 r0_28) (View.ld x5 r0_29) (View.ld x6 r0_30) (View.ld x7 r0_31) (View.ld x8 r0_32) (View.ld x9 r0_33))

/-- What the body stores is that composition: the one store's value, by unfolding the body's named values. -/
theorem out0_10_eq (x0 : Vec F S4096x384 .f32) (x1 : Vec F S4096 .i32) (x2 : Vec F S4x384x160 .f32) (x3 : Vec F S4x160 .f32)
    (x4 : Vec F S4x160x128 .f32) (x5 : Vec F S4x128 .f32) (x6 : Vec F S4x128x96 .f32) (x7 : Vec F S4x96 .f32)
    (x8 : Vec F S4x96x1 .f32) (x9 : Vec F S4x1 .f32) :
    out0_10 x0 x1 x2 x3 x4 x5 x6 x7 x8 x9 = View.canon [⟨r0_0, blockV x0 x1 x2 x3 x4 x5 x6 x7 x8 x9⟩] := rfl

end Cert.KernelIdeal.Body

end
-- ==== Proof.KernelBodyIdeal.lean ====
/-
  The kernel body's block of energies, read at one atom, over the extended reals: each dense layer on the matrix unit
  is a plain sum over the contracted index plus the bias (a product into a zero accumulator adds nothing; a change of
  float format is the identity), the lane sum of the last layer is a plain sum, CELU acts entry by entry, so one
  expert's block at row p is the specification's perceptron of that row; and the accumulation from zero of the four
  masked experts keeps exactly the expert whose number the atom's species word holds (0 + x = x and x + 0 = x need no
  finiteness).
-/
import proofs.«419645_j25383256719857_3_alg».proof.Proof.KernelBody
import proofs.«419645_j25383256719857_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx

/-! ## CELU entry by entry -/

theorem celuV_apply {s : Shape} (h : FVec Ideal s .f32) (i : s.Idx) : celuV h i = Cert.MoE.celu (h i) := by
  show Scalar.select (Ideal.cmp .ogt (h i) (Ideal.ofBits .f32 0x00000000#32)) (h i)
      (Ideal.ofBits .f32 0x3DCCCCCD#32 * (Ideal.exp (Ideal.div (h i) (Ideal.ofBits .f32 0x3DCCCCCD#32)) - Ideal.ofBits .f32 0x3F800000#32)) = _
  rw [Ideal.ofBits_zero_f32, Cert.MoE.ofBits_one_f32]
  unfold Cert.MoE.celu
  by_cases hp : 0 < h i
  · have hc : Ideal.cmp .ogt (h i) 0 = 1#1 := by
      show BitVec.ofBool (decide (0 < h i)) = 1#1
      rw [decide_eq_true hp]; rfl
    rw [hc, select_one, if_pos hp]
  · have hc : Ideal.cmp .ogt (h i) 0 = 0#1 := by
      show BitVec.ofBool (decide (0 < h i)) = 0#1
      rw [decide_eq_false hp]; rfl
    rw [hc, select_zero, if_neg hp]

/-! ## The three matrix products: which entries a product's entry (p, q) multiplies -/

theorem lhs1_0 (i : S4096x160.Idx) (q : dot_S4096x384_S384x160_S4096x160_1_0_0_1_n_n.contr.Idx) :
    (dot_S4096x384_S384x160_S4096x160_1_0_0_1_n_n.lhsIdx i q 0).val = (i 0).val := by
  unfold DotDims.lhsIdx
  rw [dif_neg (show ¬(0 : Fin S4096x384.rank) ∈ dot_S4096x384_S384x160_S4096x160_1_0_0_1_n_n.lhsBatch by decide), dif_pos (show (0 : Fin S4096x384.rank) ∈ dot_S4096x384_S384x160_S4096x160_1_0_0_1_n_n.lhsNonContracting by decide)]
  rfl
theorem lhs1_1 (i : S4096x160.Idx) (q : dot_S4096x384_S384x160_S4096x160_1_0_0_1_n_n.contr.Idx) :
    (dot_S4096x384_S384x160_S4096x160_1_0_0_1_n_n.lhsIdx i q 1).val = (q ⟨0, by decide⟩).val :=
  dot_S4096x384_S384x160_S4096x160_1_0_0_1_n_n.lhsIdx_val_of_single rfl i q
theorem rhs1_0 (i : S4096x160.Idx) (q : dot_S4096x384_S384x160_S4096x160_1_0_0_1_n_n.contr.Idx) :
    (dot_S4096x384_S384x160_S4096x160_1_0_0_1_n_n.rhsIdx i q 0).val = (q ⟨0, by decide⟩).val :=
  dot_S4096x384_S384x160_S4096x160_1_0_0_1_n_n.rhsIdx_val_of_single rfl i q
theorem rhs1_1 (i : S4096x160.Idx) (q : dot_S4096x384_S384x160_S4096x160_1_0_0_1_n_n.contr.Idx) :
    (dot_S4096x384_S384x160_S4096x160_1_0_0_1_n_n.rhsIdx i q 1).val = (i 1).val := by
  unfold DotDims.rhsIdx
  rw [dif_neg (show ¬(1 : Fin S384x160.rank) ∈ dot_S4096x384_S384x160_S4096x160_1_0_0_1_n_n.rhsBatch by decide), dif_pos (show (1 : Fin S384x160.rank) ∈ dot_S4096x384_S384x160_S4096x160_1_0_0_1_n_n.rhsNonContracting by decide)]
  rfl

/-- First layer at (p, q): the row of features against column q of the expert's 384 × 160 weights, plus bias q. -/
theorem dense1V_apply (a : FVec Ideal S4096x384 .bf16) (w : Vec Ideal S1x384x160 .f32) (b : Vec Ideal S1x160 .f32)
    (p : Fin 4096) (q : Fin 160) :
    dense1V a w b (ix2 p q)
      = Cert.MoE.dense (fun k => a (ix2 p k)) (fun k c => w (ix3 (0 : Fin 1) k c)) (fun c => b (ix2 (0 : Fin 1) c)) q := by
  unfold dense1V Cert.MoE.dense
  rw [addf_apply]
  refine congrArg₂ (· + ·) ?_ ?_
  · refine (Ideal.matmul_constant_zero_apply _ none a _ (ix2 p q)).trans ?_
    rw [← Equiv.sum_comp (contrEquiv1 dot_S4096x384_S384x160_S4096x160_1_0_0_1_n_n 384 rfl rfl).symm]
    refine Finset.sum_congr rfl fun k _ => ?_
    have hk := contrEquiv1_symm_val dot_S4096x384_S384x160_S4096x160_1_0_0_1_n_n 384 rfl rfl k
    have el : dot_S4096x384_S384x160_S4096x160_1_0_0_1_n_n.lhsIdx (ix2 p q) ((contrEquiv1 dot_S4096x384_S384x160_S4096x160_1_0_0_1_n_n 384 rfl rfl).symm k) = ix2 p k := funext fun x => Fin.ext (by
      match x with
      | ⟨0, _⟩ => exact lhs1_0 _ _
      | ⟨1, _⟩ => exact (lhs1_1 _ _).trans hk)
    have er : dot_S4096x384_S384x160_S4096x160_1_0_0_1_n_n.rhsIdx (ix2 p q) ((contrEquiv1 dot_S4096x384_S384x160_S4096x160_1_0_0_1_n_n 384 rfl rfl).symm k) = ix2 k q := funext fun x => Fin.ext (by
      match x with
      | ⟨0, _⟩ => exact (rhs1_0 _ _).trans hk
      | ⟨1, _⟩ => exact rhs1_1 _ _)
    rw [el, er]
    exact congrArg (a (ix2 p k) * ·) (shapeCast_1ab_ab_apply w _ k q)
  · rw [shapeCast_shapeCast]
    exact broadcastTo_1b_ab_apply b _ p q

theorem lhs2_0 (i : S4096x128.Idx) (q : dot_S4096x160_S160x128_S4096x128_1_0_0_1_n_n.contr.Idx) :
    (dot_S4096x160_S160x128_S4096x128_1_0_0_1_n_n.lhsIdx i q 0).val = (i 0).val := by
  unfold DotDims.lhsIdx
  rw [dif_neg (show ¬(0 : Fin S4096x160.rank) ∈ dot_S4096x160_S160x128_S4096x128_1_0_0_1_n_n.lhsBatch by decide), dif_pos (show (0 : Fin S4096x160.rank) ∈ dot_S4096x160_S160x128_S4096x128_1_0_0_1_n_n.lhsNonContracting by decide)]
  rfl
theorem lhs2_1 (i : S4096x128.Idx) (q : dot_S4096x160_S160x128_S4096x128_1_0_0_1_n_n.contr.Idx) :
    (dot_S4096x160_S160x128_S4096x128_1_0_0_1_n_n.lhsIdx i q 1).val = (q ⟨0, by decide⟩).val :=
  dot_S4096x160_S160x128_S4096x128_1_0_0_1_n_n.lhsIdx_val_of_single rfl i q
theorem rhs2_0 (i : S4096x128.Idx) (q : dot_S4096x160_S160x128_S4096x128_1_0_0_1_n_n.contr.Idx) :
    (dot_S4096x160_S160x128_S4096x128_1_0_0_1_n_n.rhsIdx i q 0).val = (q ⟨0, by decide⟩).val :=
  dot_S4096x160_S160x128_S4096x128_1_0_0_1_n_n.rhsIdx_val_of_single rfl i q
theorem rhs2_1 (i : S4096x128.Idx) (q : dot_S4096x160_S160x128_S4096x128_1_0_0_1_n_n.contr.Idx) :
    (dot_S4096x160_S160x128_S4096x128_1_0_0_1_n_n.rhsIdx i q 1).val = (i 1).val := by
  unfold DotDims.rhsIdx
  rw [dif_neg (show ¬(1 : Fin S160x128.rank) ∈ dot_S4096x160_S160x128_S4096x128_1_0_0_1_n_n.rhsBatch by decide), dif_pos (show (1 : Fin S160x128.rank) ∈ dot_S4096x160_S160x128_S4096x128_1_0_0_1_n_n.rhsNonContracting by decide)]
  rfl

/-- Second layer at (p, q). -/
theorem dense2V_apply (a : FVec Ideal S4096x160 .bf16) (w : Vec Ideal S1x160x128 .f32) (b : Vec Ideal S1x128 .f32)
    (p : Fin 4096) (q : Fin 128) :
    dense2V a w b (ix2 p q)
      = Cert.MoE.dense (fun k => a (ix2 p k)) (fun k c => w (ix3 (0 : Fin 1) k c)) (fun c => b (ix2 (0 : Fin 1) c)) q := by
  unfold dense2V Cert.MoE.dense
  rw [addf_apply]
  refine congrArg₂ (· + ·) ?_ ?_
  · refine (Ideal.matmul_constant_zero_apply _ none a _ (ix2 p q)).trans ?_
    rw [← Equiv.sum_comp (contrEquiv1 dot_S4096x160_S160x128_S4096x128_1_0_0_1_n_n 160 rfl rfl).symm]
    refine Finset.sum_congr rfl fun k _ => ?_
    have hk := contrEquiv1_symm_val dot_S4096x160_S160x128_S4096x128_1_0_0_1_n_n 160 rfl rfl k
    have el : dot_S4096x160_S160x128_S4096x128_1_0_0_1_n_n.lhsIdx (ix2 p q) ((contrEquiv1 dot_S4096x160_S160x128_S4096x128_1_0_0_1_n_n 160 rfl rfl).symm k) = ix2 p k := funext fun x => Fin.ext (by
      match x with
      | ⟨0, _⟩ => exact lhs2_0 _ _
      | ⟨1, _⟩ => exact (lhs2_1 _ _).trans hk)
    have er : dot_S4096x160_S160x128_S4096x128_1_0_0_1_n_n.rhsIdx (ix2 p q) ((contrEquiv1 dot_S4096x160_S160x128_S4096x128_1_0_0_1_n_n 160 rfl rfl).symm k) = ix2 k q := funext fun x => Fin.ext (by
      match x with
      | ⟨0, _⟩ => exact (rhs2_0 _ _).trans hk
      | ⟨1, _⟩ => exact rhs2_1 _ _)
    rw [el, er]
    exact congrArg (a (ix2 p k) * ·) (shapeCast_1ab_ab_apply w _ k q)
  · rw [shapeCast_shapeCast]
    exact broadcastTo_1b_ab_apply b _ p q

theorem lhs3_0 (i : S4096x96.Idx) (q : dot_S4096x128_S128x96_S4096x96_1_0_0_1_n_n.contr.Idx) :
    (dot_S4096x128_S128x96_S4096x96_1_0_0_1_n_n.lhsIdx i q 0).val = (i 0).val := by
  unfold DotDims.lhsIdx
  rw [dif_neg (show ¬(0 : Fin S4096x128.rank) ∈ dot_S4096x128_S128x96_S4096x96_1_0_0_1_n_n.lhsBatch by decide), dif_pos (show (0 : Fin S4096x128.rank) ∈ dot_S4096x128_S128x96_S4096x96_1_0_0_1_n_n.lhsNonContracting by decide)]
  rfl
theorem lhs3_1 (i : S4096x96.Idx) (q : dot_S4096x128_S128x96_S4096x96_1_0_0_1_n_n.contr.Idx) :
    (dot_S4096x128_S128x96_S4096x96_1_0_0_1_n_n.lhsIdx i q 1).val = (q ⟨0, by decide⟩).val :=
  dot_S4096x128_S128x96_S4096x96_1_0_0_1_n_n.lhsIdx_val_of_single rfl i q
theorem rhs3_0 (i : S4096x96.Idx) (q : dot_S4096x128_S128x96_S4096x96_1_0_0_1_n_n.contr.Idx) :
    (dot_S4096x128_S128x96_S4096x96_1_0_0_1_n_n.rhsIdx i q 0).val = (q ⟨0, by decide⟩).val :=
  dot_S4096x128_S128x96_S4096x96_1_0_0_1_n_n.rhsIdx_val_of_single rfl i q
theorem rhs3_1 (i : S4096x96.Idx) (q : dot_S4096x128_S128x96_S4096x96_1_0_0_1_n_n.contr.Idx) :
    (dot_S4096x128_S128x96_S4096x96_1_0_0_1_n_n.rhsIdx i q 1).val = (i 1).val := by
  unfold DotDims.rhsIdx
  rw [dif_neg (show ¬(1 : Fin S128x96.rank) ∈ dot_S4096x128_S128x96_S4096x96_1_0_0_1_n_n.rhsBatch by decide), dif_pos (show (1 : Fin S128x96.rank) ∈ dot_S4096x128_S128x96_S4096x96_1_0_0_1_n_n.rhsNonContracting by decide)]
  rfl

/-- Third layer at (p, q). -/
theorem dense3V_apply (a : FVec Ideal S4096x128 .bf16) (w : Vec Ideal S1x128x96 .f32) (b : Vec Ideal S1x96 .f32)
    (p : Fin 4096) (q : Fin 96) :
    dense3V a w b (ix2 p q)
      = Cert.MoE.dense (fun k => a (ix2 p k)) (fun k c => w (ix3 (0 : Fin 1) k c)) (fun c => b (ix2 (0 : Fin 1) c)) q := by
  unfold dense3V Cert.MoE.dense
  rw [addf_apply]
  refine congrArg₂ (· + ·) ?_ ?_
  · refine (Ideal.matmul_constant_zero_apply _ none a _ (ix2 p q)).trans ?_
    rw [← Equiv.sum_comp (contrEquiv1 dot_S4096x128_S128x96_S4096x96_1_0_0_1_n_n 128 rfl rfl).symm]
    refine Finset.sum_congr rfl fun k _ => ?_
    have hk := contrEquiv1_symm_val dot_S4096x128_S128x96_S4096x96_1_0_0_1_n_n 128 rfl rfl k
    have el : dot_S4096x128_S128x96_S4096x96_1_0_0_1_n_n.lhsIdx (ix2 p q) ((contrEquiv1 dot_S4096x128_S128x96_S4096x96_1_0_0_1_n_n 128 rfl rfl).symm k) = ix2 p k := funext fun x => Fin.ext (by
      match x with
      | ⟨0, _⟩ => exact lhs3_0 _ _
      | ⟨1, _⟩ => exact (lhs3_1 _ _).trans hk)
    have er : dot_S4096x128_S128x96_S4096x96_1_0_0_1_n_n.rhsIdx (ix2 p q) ((contrEquiv1 dot_S4096x128_S128x96_S4096x96_1_0_0_1_n_n 128 rfl rfl).symm k) = ix2 k q := funext fun x => Fin.ext (by
      match x with
      | ⟨0, _⟩ => exact (rhs3_0 _ _).trans hk
      | ⟨1, _⟩ => exact rhs3_1 _ _)
    rw [el, er]
    exact congrArg (a (ix2 p k) * ·) (shapeCast_1ab_ab_apply w _ k q)
  · rw [shapeCast_shapeCast]
    exact broadcastTo_1b_ab_apply b _ p q

/-! ## The last layer: a product with the weight row and a sum along the lanes -/

/-- Last layer at row p: the sum over the 96 lanes of activation times weight, plus the bias. -/
theorem lastV_apply (h : FVec Ideal S4096x96 .f32) (w : Vec Ideal S1x96x1 .f32) (b : Vec Ideal S1x1 .f32) (p : Fin 4096) :
    lastV h w b (ix1 p) = (∑ k : Fin 96, h (ix2 p k) * w (ix3 (0 : Fin 1) k (0 : Fin 1))) + b (ix2 (0 : Fin 1) (0 : Fin 1)) := by
  unfold lastV
  rw [addf_apply]
  refine congrArg₂ (· + ·) ?_ ?_
  · refine (Ideal.multiReduction_add_single _ 0x00000000#32 reduces_S4096x96_S4096 (.inl rfl) rfl (ix1 p)).trans ?_
    refine Finset.sum_congr rfl fun (k : Fin 96) _ => ?_
    have hl : reduces_S4096x96_S4096.lift (ix1 p) k = ix2 p k := funext fun x => Fin.ext (by
      match x with
      | ⟨0, _⟩ => rfl
      | ⟨1, _⟩ => rfl)
    rw [hl, mulf_apply]
    refine congrArg (h (ix2 p k) * ·) ?_
    refine (broadcastTo_1b_ab_apply _ _ p k).trans ?_
    refine (shapeCast_a_1a_apply _ _ 0 k).trans ?_
    refine (shapeCast_apply _ _ (ix1 k) (ix2 k (0 : Fin 1)) (by
      rw [Shape.rowMajor_val_two, Shape.rowMajor_val_one]; show k.val * 1 + 0 = k.val; omega)).trans ?_
    exact shapeCast_1ab_ab_apply w _ k 0
  · refine (broadcastTo_apply _ _ (ix1 p) (ix1 (0 : Fin 1)) (fun a => by match a with | ⟨0, _⟩ => rfl)).trans ?_
    exact shapeCast_1a_a_apply b _ 0

/-! ## One expert over the block, at a row -/

/-- Expert energies at row p: the specification's perceptron of the row, over the expert's loaded slabs. -/
theorem expertV_apply (a : FVec Ideal S4096x384 .bf16) (w1 : Vec Ideal S1x384x160 .f32) (b1 : Vec Ideal S1x160 .f32)
    (w2 : Vec Ideal S1x160x128 .f32) (b2 : Vec Ideal S1x128 .f32) (w3 : Vec Ideal S1x128x96 .f32) (b3 : Vec Ideal S1x96 .f32)
    (w4 : Vec Ideal S1x96x1 .f32) (b4 : Vec Ideal S1x1 .f32) (p : Fin 4096) :
    expertV a w1 b1 w2 b2 w3 b3 w4 b4 (ix1 p)
      = Cert.MoE.energy (fun k => a (ix2 p k))
          (fun k c => w1 (ix3 (0 : Fin 1) k c)) (fun c => b1 (ix2 (0 : Fin 1) c))
          (fun k c => w2 (ix3 (0 : Fin 1) k c)) (fun c => b2 (ix2 (0 : Fin 1) c))
          (fun k c => w3 (ix3 (0 : Fin 1) k c)) (fun c => b3 (ix2 (0 : Fin 1) c))
          (fun k => w4 (ix3 (0 : Fin 1) k (0 : Fin 1))) (b4 (ix2 (0 : Fin 1) (0 : Fin 1))) := by
  unfold expertV Cert.MoE.energy
  rw [lastV_apply]
  simp only [celuV_apply, dense3V_apply, truncf_apply, dense2V_apply, dense1V_apply]

end Cert.KernelIdeal.Body

end
-- ==== Proof.KernelBlock.lean ====
/-
  The kernel body's block at one atom, as the specification's perceptron of the expert the atom's species word names.
  A load of expert e's slab of a stacked weight array reads the array at (e, ·, ·); the accumulation of the four
  masked experts from zero, at an atom whose species word is the number e ∈ {0, 1, 2, 3}, is 0 + … + expert e + … + 0,
  which is expert e's value (the additive unit laws hold on the extended reals without finiteness).
-/
import proofs.«419645_j25383256719857_3_alg».proof.Proof.KernelBodyIdeal

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx

/-! ## Loads of one expert's slab -/

/-- Expert e's slab of a stacked rank-3 array, read at (0, k, c), is the array at (e, k, c). -/
theorem ld3_apply {K C : Nat} (X : Vec Ideal (⟨3, ![4, K, C]⟩ : Shape) .f32) (e : Fin 4)
    (inb : ∀ a, (![e.val, 0, 0] : Fin 3 → Nat) a + (![1, K, C] : Fin 3 → Nat) a ≤ (⟨3, ![4, K, C]⟩ : Shape).size a)
    (k : Fin K) (c : Fin C) :
    View.ld X (Rect.unit (s := ⟨3, ![4, K, C]⟩) ![e.val, 0, 0] ![1, K, C] inb) (ix3 (0 : Fin 1) k c) = X (ix3 e k c) := by
  show X ((Rect.unit (s := ⟨3, ![4, K, C]⟩) ![e.val, 0, 0] ![1, K, C] inb).emb (ix3 (0 : Fin 1) k c)) = X (ix3 e k c)
  refine congrArg X (funext fun a => Fin.ext ?_)
  match a with
  | ⟨0, _⟩ => show e.val + 1 * 0 = e.val; omega
  | ⟨1, _⟩ => show 0 + 1 * k.val = k.val; omega
  | ⟨2, _⟩ => show 0 + 1 * c.val = c.val; omega

/-- Expert e's row of a stacked rank-2 array, read at (0, c), is the array at (e, c). -/
theorem ld2_apply {C : Nat} (X : Vec Ideal (⟨2, ![4, C]⟩ : Shape) .f32) (e : Fin 4)
    (inb : ∀ a, (![e.val, 0] : Fin 2 → Nat) a + (![1, C] : Fin 2 → Nat) a ≤ (⟨2, ![4, C]⟩ : Shape).size a)
    (c : Fin C) :
    View.ld X (Rect.unit (s := ⟨2, ![4, C]⟩) ![e.val, 0] ![1, C] inb) (ix2 (0 : Fin 1) c) = X (ix2 e c) := by
  show X ((Rect.unit (s := ⟨2, ![4, C]⟩) ![e.val, 0] ![1, C] inb).emb (ix2 (0 : Fin 1) c)) = X (ix2 e c)
  refine congrArg X (funext fun a => Fin.ext ?_)
  match a with
  | ⟨0, _⟩ => show e.val + 1 * 0 = e.val; omega
  | ⟨1, _⟩ => show 0 + 1 * c.val = c.val; omega

/-- One expert over the block with its weights loaded as expert e's slabs of the stacked arrays: at row p, the
    specification's perceptron with expert e's weights. -/
theorem expertV_ld (a : FVec Ideal S4096x384 .bf16)
    (x2 : Vec Ideal S4x384x160 .f32) (x3 : Vec Ideal S4x160 .f32) (x4 : Vec Ideal S4x160x128 .f32) (x5 : Vec Ideal S4x128 .f32)
    (x6 : Vec Ideal S4x128x96 .f32) (x7 : Vec Ideal S4x96 .f32) (x8 : Vec Ideal S4x96x1 .f32) (x9 : Vec Ideal S4x1 .f32)
    (e : Fin 4)
    (i2 : ∀ a, (![e.val, 0, 0] : Fin 3 → Nat) a + (![1, 384, 160] : Fin 3 → Nat) a ≤ (⟨3, ![4, 384, 160]⟩ : Shape).size a)
    (i3 : ∀ a, (![e.val, 0] : Fin 2 → Nat) a + (![1, 160] : Fin 2 → Nat) a ≤ (⟨2, ![4, 160]⟩ : Shape).size a)
    (i4 : ∀ a, (![e.val, 0, 0] : Fin 3 → Nat) a + (![1, 160, 128] : Fin 3 → Nat) a ≤ (⟨3, ![4, 160, 128]⟩ : Shape).size a)
    (i5 : ∀ a, (![e.val, 0] : Fin 2 → Nat) a + (![1, 128] : Fin 2 → Nat) a ≤ (⟨2, ![4, 128]⟩ : Shape).size a)
    (i6 : ∀ a, (![e.val, 0, 0] : Fin 3 → Nat) a + (![1, 128, 96] : Fin 3 → Nat) a ≤ (⟨3, ![4, 128, 96]⟩ : Shape).size a)
    (i7 : ∀ a, (![e.val, 0] : Fin 2 → Nat) a + (![1, 96] : Fin 2 → Nat) a ≤ (⟨2, ![4, 96]⟩ : Shape).size a)
    (i8 : ∀ a, (![e.val, 0, 0] : Fin 3 → Nat) a + (![1, 96, 1] : Fin 3 → Nat) a ≤ (⟨3, ![4, 96, 1]⟩ : Shape).size a)
    (i9 : ∀ a, (![e.val, 0] : Fin 2 → Nat) a + (![1, 1] : Fin 2 → Nat) a ≤ (⟨2, ![4, 1]⟩ : Shape).size a)
    (p : Fin 4096) :
    expertV a
        (View.ld x2 (Rect.unit (s := ⟨3, ![4, 384, 160]⟩) ![e.val, 0, 0] ![1, 384, 160] i2))
        (View.ld x3 (Rect.unit (s := ⟨2, ![4, 160]⟩) ![e.val, 0] ![1, 160] i3))
        (View.ld x4 (Rect.unit (s := ⟨3, ![4, 160, 128]⟩) ![e.val, 0, 0] ![1, 160, 128] i4))
        (View.ld x5 (Rect.unit (s := ⟨2, ![4, 128]⟩) ![e.val, 0] ![1, 128] i5))
        (View.ld x6 (Rect.unit (s := ⟨3, ![4, 128, 96]⟩) ![e.val, 0, 0] ![1, 128, 96] i6))
        (View.ld x7 (Rect.unit (s := ⟨2, ![4, 96]⟩) ![e.val, 0] ![1, 96] i7))
        (View.ld x8 (Rect.unit (s := ⟨3, ![4, 96, 1]⟩) ![e.val, 0, 0] ![1, 96, 1] i8))
        (View.ld x9 (Rect.unit (s := ⟨2, ![4, 1]⟩) ![e.val, 0] ![1, 1] i9)) (ix1 p)
      = Cert.MoE.energy (fun k => a (ix2 p k))
          (fun k c => x2 (ix3 e k c)) (fun c => x3 (ix2 e c))
          (fun k c => x4 (ix3 e k c)) (fun c => x5 (ix2 e c))
          (fun k c => x6 (ix3 e k c)) (fun c => x7 (ix2 e c))
          (fun k => x8 (ix3 e k (0 : Fin 1))) (x9 (ix2 e (0 : Fin 1))) := by
  have h2 : (fun (k : Fin 384) (c : Fin 160) => View.ld x2 (Rect.unit (s := ⟨3, ![4, 384, 160]⟩) ![e.val, 0, 0] ![1, 384, 160] i2) (ix3 (0 : Fin 1) k c))
      = fun k c => x2 (ix3 e k c) := funext fun k => funext fun c => ld3_apply x2 e i2 k c
  have h3 : (fun (c : Fin 160) => View.ld x3 (Rect.unit (s := ⟨2, ![4, 160]⟩) ![e.val, 0] ![1, 160] i3) (ix2 (0 : Fin 1) c))
      = fun c => x3 (ix2 e c) := funext fun c => ld2_apply x3 e i3 c
  have h4 : (fun (k : Fin 160) (c : Fin 128) => View.ld x4 (Rect.unit (s := ⟨3, ![4, 160, 128]⟩) ![e.val, 0, 0] ![1, 160, 128] i4) (ix3 (0 : Fin 1) k c))
      = fun k c => x4 (ix3 e k c) := funext fun k => funext fun c => ld3_apply x4 e i4 k c
  have h5 : (fun (c : Fin 128) => View.ld x5 (Rect.unit (s := ⟨2, ![4, 128]⟩) ![e.val, 0] ![1, 128] i5) (ix2 (0 : Fin 1) c))
      = fun c => x5 (ix2 e c) := funext fun c => ld2_apply x5 e i5 c
  have h6 : (fun (k : Fin 128) (c : Fin 96) => View.ld x6 (Rect.unit (s := ⟨3, ![4, 128, 96]⟩) ![e.val, 0, 0] ![1, 128, 96] i6) (ix3 (0 : Fin 1) k c))
      = fun k c => x6 (ix3 e k c) := funext fun k => funext fun c => ld3_apply x6 e i6 k c
  have h7 : (fun (c : Fin 96) => View.ld x7 (Rect.unit (s := ⟨2, ![4, 96]⟩) ![e.val, 0] ![1, 96] i7) (ix2 (0 : Fin 1) c))
      = fun c => x7 (ix2 e c) := funext fun c => ld2_apply x7 e i7 c
  have h8 : (fun (k : Fin 96) => View.ld x8 (Rect.unit (s := ⟨3, ![4, 96, 1]⟩) ![e.val, 0, 0] ![1, 96, 1] i8) (ix3 (0 : Fin 1) k (0 : Fin 1)))
      = fun k => x8 (ix3 e k (0 : Fin 1)) := funext fun k => ld3_apply x8 e i8 k 0
  have h9 : View.ld x9 (Rect.unit (s := ⟨2, ![4, 1]⟩) ![e.val, 0] ![1, 1] i9) (ix2 (0 : Fin 1) (0 : Fin 1)) = x9 (ix2 e (0 : Fin 1)) :=
    ld2_apply x9 e i9 0
  rw [expertV_apply, h2, h3, h4, h5, h6, h7, h8, h9]

/-! ## The accumulation keeps the named expert -/

/-- At an atom whose species word is the number e, the accumulation from zero of the four masked experts is expert
    e's value. -/
theorem pick4 (s : IVec S4096 32) (o0 o1 o2 o3 : FVec Ideal S4096 .f32) (i : S4096.Idx) (e : Fin 4)
    (hs : s i = BitVec.ofNat 32 e.val) :
    pickV s 3#32 (pickV s 2#32 (pickV s 1#32 (pickV s 0#32 (broadcast S4096 (Scalar.ofBits .f32 0x00000000#32)) o0) o1) o2) o3 i
      = (![o0 i, o1 i, o2 i, o3 i] : Fin 4 → EReal) e := by
  show (((Ideal.ofBits .f32 0x00000000#32
        + Scalar.select (IntOp.cmpi .eq (s i) 0#32) (o0 i) (Ideal.ofBits .f32 0x00000000#32))
        + Scalar.select (IntOp.cmpi .eq (s i) 1#32) (o1 i) (Ideal.ofBits .f32 0x00000000#32))
        + Scalar.select (IntOp.cmpi .eq (s i) 2#32) (o2 i) (Ideal.ofBits .f32 0x00000000#32))
        + Scalar.select (IntOp.cmpi .eq (s i) 3#32) (o3 i) (Ideal.ofBits .f32 0x00000000#32) = _
  rw [hs, Ideal.ofBits_zero_f32]
  match e with
  | ⟨0, _⟩ =>
    rw [show IntOp.cmpi .eq (BitVec.ofNat 32 0) 0#32 = 1#1 by decide, show IntOp.cmpi .eq (BitVec.ofNat 32 0) 1#32 = 0#1 by decide,
      show IntOp.cmpi .eq (BitVec.ofNat 32 0) 2#32 = 0#1 by decide, show IntOp.cmpi .eq (BitVec.ofNat 32 0) 3#32 = 0#1 by decide,
      select_one, select_zero, select_zero, select_zero, zero_add, add_zero, add_zero, add_zero]
    rfl
  | ⟨1, _⟩ =>
    rw [show IntOp.cmpi .eq (BitVec.ofNat 32 1) 0#32 = 0#1 by decide, show IntOp.cmpi .eq (BitVec.ofNat 32 1) 1#32 = 1#1 by decide,
      show IntOp.cmpi .eq (BitVec.ofNat 32 1) 2#32 = 0#1 by decide, show IntOp.cmpi .eq (BitVec.ofNat 32 1) 3#32 = 0#1 by decide,
      select_zero, select_one, select_zero, select_zero, zero_add, zero_add, add_zero, add_zero]
    rfl
  | ⟨2, _⟩ =>
    rw [show IntOp.cmpi .eq (BitVec.ofNat 32 2) 0#32 = 0#1 by decide, show IntOp.cmpi .eq (BitVec.ofNat 32 2) 1#32 = 0#1 by decide,
      show IntOp.cmpi .eq (BitVec.ofNat 32 2) 2#32 = 1#1 by decide, show IntOp.cmpi .eq (BitVec.ofNat 32 2) 3#32 = 0#1 by decide,
      select_zero, select_zero, select_one, select_zero, zero_add, zero_add, zero_add, add_zero]
    rfl
  | ⟨3, _⟩ =>
    rw [show IntOp.cmpi .eq (BitVec.ofNat 32 3) 0#32 = 0#1 by decide, show IntOp.cmpi .eq (BitVec.ofNat 32 3) 1#32 = 0#1 by decide,
      show IntOp.cmpi .eq (BitVec.ofNat 32 3) 2#32 = 0#1 by decide, show IntOp.cmpi .eq (BitVec.ofNat 32 3) 3#32 = 1#1 by decide,
      select_zero, select_zero, select_zero, select_one, zero_add, zero_add, zero_add, zero_add]
    rfl

/-! ## The block at an atom -/

theorem hz1 : (![0] : Fin 1 → Nat) = fun _ => 0 := funext fun a => by fin_cases a; rfl
theorem hz2 : (![0, 0] : Fin 2 → Nat) = fun _ => 0 := funext fun a => by fin_cases a <;> rfl

/-- THE BLOCK AT ROW j: when the block's species word at j is the number e, the stored value is the specification's
    perceptron of row j of the feature block with expert e's weights. -/
theorem blockV_apply (x0 : Vec Ideal S4096x384 .f32) (x1 : Vec Ideal S4096 .i32) (x2 : Vec Ideal S4x384x160 .f32)
    (x3 : Vec Ideal S4x160 .f32) (x4 : Vec Ideal S4x160x128 .f32) (x5 : Vec Ideal S4x128 .f32)
    (x6 : Vec Ideal S4x128x96 .f32) (x7 : Vec Ideal S4x96 .f32) (x8 : Vec Ideal S4x96x1 .f32) (x9 : Vec Ideal S4x1 .f32)
    (j : Fin 4096) (e : Fin 4) (hs : x1 (ix1 j) = BitVec.ofNat 32 e.val) :
    blockV x0 x1 x2 x3 x4 x5 x6 x7 x8 x9 (ix1 j)
      = Cert.MoE.energy (fun k => x0 (ix2 j k))
          (fun k c => x2 (ix3 e k c)) (fun c => x3 (ix2 e c))
          (fun k c => x4 (ix3 e k c)) (fun c => x5 (ix2 e c))
          (fun k c => x6 (ix3 e k c)) (fun c => x7 (ix2 e c))
          (fun k => x8 (ix3 e k (0 : Fin 1))) (x9 (ix2 e (0 : Fin 1))) := by
  unfold blockV
  have hsj : (shapeCast S4096 (View.ld x1 r0_0) shapeCasts_S4096_S4096 : IVec S4096 32) (ix1 j) = BitVec.ofNat 32 e.val :=
    (congrFun (shapeCast_self (s := S4096) (View.ld x1 r0_0) shapeCasts_S4096_S4096) (ix1 j)).trans
      ((congrFun (View.ld_unit_zero (S := S4096) hz1 _ x1) (ix1 j)).trans hs)
  rw [pick4 _ _ _ _ _ (ix1 j) e hsj]
  have ha : (fun k : Fin 384 => (truncf .bf16 (shapeCast S4096x384 (View.ld x0 r0_1) shapeCasts_S4096x384_S4096x384) bitsLt_bf16_f32 : FVec Ideal S4096x384 .bf16) (ix2 j k))
      = fun k => x0 (ix2 j k) := funext fun k =>
    (congrFun (shapeCast_self (s := S4096x384) (View.ld x0 r0_1) shapeCasts_S4096x384_S4096x384) (ix2 j k)).trans
      (congrFun (View.ld_unit_zero (S := S4096x384) hz2 _ x0) (ix2 j k))
  match e with
  | ⟨0, _⟩ => exact (expertV_ld _ x2 x3 x4 x5 x6 x7 x8 x9 (0 : Fin 4) _ _ _ _ _ _ _ _ j).trans (by rw [ha]; exact rfl)
  | ⟨1, _⟩ => exact (expertV_ld _ x2 x3 x4 x5 x6 x7 x8 x9 (1 : Fin 4) _ _ _ _ _ _ _ _ j).trans (by rw [ha]; exact rfl)
  | ⟨2, _⟩ => exact (expertV_ld _ x2 x3 x4 x5 x6 x7 x8 x9 (2 : Fin 4) _ _ _ _ _ _ _ _ j).trans (by rw [ha]; exact rfl)
  | ⟨3, _⟩ => exact (expertV_ld _ x2 x3 x4 x5 x6 x7 x8 x9 (3 : Fin 4) _ _ _ _ _ _ _ _ j).trans (by rw [ha]; exact rfl)

end Cert.KernelIdeal.Body

end
-- ==== Proof.KernelValue.lean ====
/-
  The kernel's array of per-atom energies after the region is the specification's. The region runs 32 grid points;
  point t stages block t (4096 atoms) of the flattened features and of the clipped flattened species words, holds the
  eight stacked weight arrays whole, and writes back block t of the output. The species words the region sees were
  clipped into [0, 3] by the host (a signed maximum with 0, then a signed minimum with 3); for a word that is not
  negative that clip is the specification's expert selection. So block t of the output is block t of the
  specification's per-atom array, the 32 blocks tile the array, and the array ends holding it.
-/
import proofs.«419645_j25383256719857_3_alg».proof.Proof.KernelBlock
import Idealize.ShloMosaic.Lib.Pipeline.Value
import Idealize.ShloMosaic.Lib.StableHlo.Run

set_option maxRecDepth 16384

noncomputable section

namespace Cert.KernelIdeal.ArrValue

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## The clip is the expert selection -/

/-- For a word that is not negative, the signed maximum with 0 followed by the signed minimum with 3 is the word's
    value clamped into [0, 3], as a word. -/
theorem clip_eq (s : BitVec 32) (h : 0 ≤ s.toInt) :
    IntOp.minsi 3#32 (IntOp.maxsi 0#32 s) = BitVec.ofNat 32 (Cert.MoE.expertOf s).val := by
  have hc := BitVec.toInt_eq_toNat_cond s
  have hlt := s.isLt
  have hnat : s.toInt = (s.toNat : Int) := by split at hc <;> omega
  have h0 : s.slt 0#32 = false := by
    simp only [BitVec.slt, BitVec.toInt_zero, decide_eq_false_iff_not, not_lt]; exact h
  have h3i : (3#32 : BitVec 32).toInt = 3 := by decide
  unfold IntOp.minsi IntOp.maxsi Cert.MoE.expertOf
  rw [h0]
  simp only [Bool.false_eq_true, if_false]
  by_cases h3 : (3#32 : BitVec 32).slt s = true
  · rw [if_pos h3]
    have h3' : (3 : Int) < s.toInt := by
      have := h3; simp only [BitVec.slt, decide_eq_true_eq] at this; rw [h3i] at this; exact this
    show 3#32 = BitVec.ofNat 32 (min s.toInt.toNat 3)
    rw [Nat.min_eq_right (by omega)]
  · rw [if_neg h3]
    have h3' : s.toInt ≤ 3 := by
      have := h3; simp only [BitVec.slt, decide_eq_true_eq, not_lt] at this; rw [h3i] at this; exact this
    show s = BitVec.ofNat 32 (min s.toInt.toNat 3)
    rw [Nat.min_eq_left (by omega)]
    apply BitVec.eq_of_toNat_eq
    rw [BitVec.toNat_ofNat]
    have : s.toInt.toNat = s.toNat := by omega
    rw [this, Nat.mod_eq_of_lt hlt]

variable (m : (ℓ : Loc nD τ sig) → Buf (Elt Ideal) ℓ)

/-! ## The arrays as the region finds them -/

/-- The flattened species words, before the clip. -/
abbrev spFlat (c : Dev nD) : IVec S131072 32 :=
  shapeCast S131072 (m ((c : Thread nD τ).loc main_arg0) : S4096x32.Idx → BitVec 32) shapeCasts_S4096x32_S131072

/-- The flattened feature rows. -/
abbrev xFlat (c : Dev nD) : FVec Ideal S131072x384 .f32 :=
  shapeCast S131072x384 (m ((c : Thread nD τ).loc main_arg1) : S4096x32x384.Idx → EReal) shapeCasts_S4096x32x384_S131072x384

/-- The region's feature array is the flattened features. -/
theorem V_feat (c : Dev nD) : (V m c main_v2 : S131072x384.Idx → EReal) = xFlat m c := by
  dsimp only [V, V0]
  simp only [hostOps0, hostOps0_1, hostOps0_2, List.flatten_cons, List.flatten_nil, List.append_nil, List.cons_append,
    List.nil_append]
  after_results
  rfl

/-- The region's species array is the flattened species words clipped into [0, 3]. -/
theorem V_species (c : Dev nD) (n : S131072.Idx) :
    (V m c main_v1 : S131072.Idx → BitVec 32) n = IntOp.minsi 3#32 (IntOp.maxsi 0#32 (spFlat m c n)) := by
  have e : (V m c main_v1 : S131072.Idx → BitVec 32)
      = minsi (broadcastInDim S131072 ![] bcast_S_S131072 (constantI S_ 32 3#32))
          (maxsi (broadcastInDim S131072 ![] bcast_S_S131072 (constantI S_ 32 0#32)) (spFlat m c)) := by
    dsimp only [V, V0]
    simp only [hostOps0, hostOps0_1, hostOps0_2, List.flatten_cons, List.flatten_nil, List.append_nil, List.cons_append,
      List.nil_append]
    after_results
    rfl
  rw [e]
  rfl

/-! ## The specification's array over the kernel's arguments -/

/-- The specification's per-atom energies of the kernel's argument arrays. -/
def G (c : Dev nD) : S131072.Idx → EReal :=
  Cert.MoE.perAtom (spFlat m c) (xFlat m c)
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-! ## The index maps over the 32 grid points -/

/-- Decided once over the grid: the feature and species windows move with the output window along the atoms and the
    weight windows never move; the output's block index stays below 32. -/
theorem idx_facts : ∀ t : Fin cfg0.N,
    win0_0.index t (0 : Fin 2) = win0_10.index t (0 : Fin 1) ∧ win0_0.index t (1 : Fin 2) = 0
    ∧ win0_1.index t (0 : Fin 1) = win0_10.index t (0 : Fin 1)
    ∧ (∀ a : Fin 3, win0_2.index t a = 0) ∧ (∀ a : Fin 2, win0_3.index t a = 0)
    ∧ (∀ a : Fin 3, win0_4.index t a = 0) ∧ (∀ a : Fin 2, win0_5.index t a = 0)
    ∧ (∀ a : Fin 3, win0_6.index t a = 0) ∧ (∀ a : Fin 2, win0_7.index t a = 0)
    ∧ (∀ a : Fin 3, win0_8.index t a = 0) ∧ (∀ a : Fin 2, win0_9.index t a = 0)
    ∧ win0_10.index t (0 : Fin 1) ≤ 31 :=
  (by decide +kernel : ∀ t : Fin grid0.N, _)

/-- Every one of the 32 output blocks is some point's. -/
theorem idx_onto : ∀ q : Fin 32, ∃ t : Fin cfg0.N, win0_10.index t (0 : Fin 1) = q.val :=
  (by decide +kernel : ∀ q : Fin 32, ∃ t : Fin grid0.N, win0_10.index t (0 : Fin 1) = q.val)

/-! ## The staged blocks, by their literal types -/

abbrev featBlk (c : Dev nD) (t : Fin cfg0.N) : Vec Ideal S4096x384 .f32 := iblk m c 0 t
abbrev specBlk (c : Dev nD) (t : Fin cfg0.N) : Vec Ideal S4096 .i32 := iblk m c 1 t
abbrev w1Blk (c : Dev nD) (t : Fin cfg0.N) : Vec Ideal S4x384x160 .f32 := iblk m c 2 t
abbrev b1Blk (c : Dev nD) (t : Fin cfg0.N) : Vec Ideal S4x160 .f32 := iblk m c 3 t
abbrev w2Blk (c : Dev nD) (t : Fin cfg0.N) : Vec Ideal S4x160x128 .f32 := iblk m c 4 t
abbrev b2Blk (c : Dev nD) (t : Fin cfg0.N) : Vec Ideal S4x128 .f32 := iblk m c 5 t
abbrev w3Blk (c : Dev nD) (t : Fin cfg0.N) : Vec Ideal S4x128x96 .f32 := iblk m c 6 t
abbrev b3Blk (c : Dev nD) (t : Fin cfg0.N) : Vec Ideal S4x96 .f32 := iblk m c 7 t
abbrev w4Blk (c : Dev nD) (t : Fin cfg0.N) : Vec Ideal S4x96x1 .f32 := iblk m c 8 t
abbrev b4Blk (c : Dev nD) (t : Fin cfg0.N) : Vec Ideal S4x1 .f32 := iblk m c 9 t

/-- The atom at row jj of point t's block: position (block index) · 4096 + jj. -/
abbrev atomOf (t : Fin cfg0.N) (jj : Fin 4096) : S131072.Idx :=
  ix1 ⟨win0_10.index t (0 : Fin 1) * 4096 + jj.val, by
    have := (idx_facts t).2.2.2.2.2.2.2.2.2.2.2; have := jj.isLt; omega⟩

/-- Row jj of the feature block is the atom's row of the flattened features. -/
theorem featBlk_apply (c : Dev nD) (t : Fin cfg0.N) (jj : Fin 4096) (k : Fin 384) :
    featBlk m c t (ix2 jj k) = xFlat m c (ix2 ((atomOf t jj) 0) k) := by
  obtain ⟨f00, f01, -⟩ := idx_facts t
  show V m c main_v2 (((cfg0.win 0).blk t).view.emb (ix2 jj k)) = _
  rw [V_feat]
  refine congrArg (xFlat m c) (funext fun a => Fin.ext ?_)
  match a with
  | ⟨0, _⟩ => show win0_0.index t (0 : Fin 2) * 4096 + 1 * jj.val = win0_10.index t (0 : Fin 1) * 4096 + jj.val; rw [f00]; omega
  | ⟨1, _⟩ => show win0_0.index t (1 : Fin 2) * 384 + 1 * k.val = k.val; rw [f01]; omega

/-- Row jj of the species block is the atom's clipped species word. -/
theorem specBlk_apply (c : Dev nD) (t : Fin cfg0.N) (jj : Fin 4096) :
    specBlk m c t (ix1 jj) = IntOp.minsi 3#32 (IntOp.maxsi 0#32 (spFlat m c (atomOf t jj))) := by
  obtain ⟨-, -, f1, -⟩ := idx_facts t
  show (V m c main_v1 : S131072.Idx → BitVec 32) (((cfg0.win 1).blk t).view.emb (ix1 jj)) = _
  have he : ((cfg0.win 1).blk t).view.emb (ix1 jj) = atomOf t jj := funext fun a => Fin.ext (by
    match a with
    | ⟨0, _⟩ => show win0_1.index t (0 : Fin 1) * 4096 + 1 * jj.val = win0_10.index t (0 : Fin 1) * 4096 + jj.val; rw [f1]; omega)
  rw [he, V_species]

theorem w1Blk_apply (c : Dev nD) (t : Fin cfg0.N) (e : Fin 4) (k : Fin 384) (q : Fin 160) :
    w1Blk m c t (ix3 e k q) = m ((c : Thread nD τ).loc main_arg2) (ix3 e k q) := by
  obtain ⟨-, -, -, f, -⟩ := idx_facts t
  show V m c main_arg2 (((cfg0.win 2).blk t).view.emb (ix3 e k q)) = _
  rw [V_main_arg2]
  refine congrArg (m ((c : Thread nD τ).loc main_arg2)) (funext fun a => Fin.ext ?_)
  match a with
  | ⟨0, _⟩ => show win0_2.index t (0 : Fin 3) * 4 + 1 * e.val = e.val; rw [f 0]; omega
  | ⟨1, _⟩ => show win0_2.index t (1 : Fin 3) * 384 + 1 * k.val = k.val; rw [f 1]; omega
  | ⟨2, _⟩ => show win0_2.index t (2 : Fin 3) * 160 + 1 * q.val = q.val; rw [f 2]; omega

theorem b1Blk_apply (c : Dev nD) (t : Fin cfg0.N) (e : Fin 4) (q : Fin 160) :
    b1Blk m c t (ix2 e q) = m ((c : Thread nD τ).loc main_arg3) (ix2 e q) := by
  obtain ⟨-, -, -, -, f, -⟩ := idx_facts t
  show V m c main_arg3 (((cfg0.win 3).blk t).view.emb (ix2 e q)) = _
  rw [V_main_arg3]
  refine congrArg (m ((c : Thread nD τ).loc main_arg3)) (funext fun a => Fin.ext ?_)
  match a with
  | ⟨0, _⟩ => show win0_3.index t (0 : Fin 2) * 4 + 1 * e.val = e.val; rw [f 0]; omega
  | ⟨1, _⟩ => show win0_3.index t (1 : Fin 2) * 160 + 1 * q.val = q.val; rw [f 1]; omega

theorem w2Blk_apply (c : Dev nD) (t : Fin cfg0.N) (e : Fin 4) (k : Fin 160) (q : Fin 128) :
    w2Blk m c t (ix3 e k q) = m ((c : Thread nD τ).loc main_arg4) (ix3 e k q) := by
  obtain ⟨-, -, -, -, -, f, -⟩ := idx_facts t
  show V m c main_arg4 (((cfg0.win 4).blk t).view.emb (ix3 e k q)) = _
  rw [V_main_arg4]
  refine congrArg (m ((c : Thread nD τ).loc main_arg4)) (funext fun a => Fin.ext ?_)
  match a with
  | ⟨0, _⟩ => show win0_4.index t (0 : Fin 3) * 4 + 1 * e.val = e.val; rw [f 0]; omega
  | ⟨1, _⟩ => show win0_4.index t (1 : Fin 3) * 160 + 1 * k.val = k.val; rw [f 1]; omega
  | ⟨2, _⟩ => show win0_4.index t (2 : Fin 3) * 128 + 1 * q.val = q.val; rw [f 2]; omega

theorem b2Blk_apply (c : Dev nD) (t : Fin cfg0.N) (e : Fin 4) (q : Fin 128) :
    b2Blk m c t (ix2 e q) = m ((c : Thread nD τ).loc main_arg5) (ix2 e q) := by
  obtain ⟨-, -, -, -, -, -, f, -⟩ := idx_facts t
  show V m c main_arg5 (((cfg0.win 5).blk t).view.emb (ix2 e q)) = _
  rw [V_main_arg5]
  refine congrArg (m ((c : Thread nD τ).loc main_arg5)) (funext fun a => Fin.ext ?_)
  match a with
  | ⟨0, _⟩ => show win0_5.index t (0 : Fin 2) * 4 + 1 * e.val = e.val; rw [f 0]; omega
  | ⟨1, _⟩ => show win0_5.index t (1 : Fin 2) * 128 + 1 * q.val = q.val; rw [f 1]; omega

theorem w3Blk_apply (c : Dev nD) (t : Fin cfg0.N) (e : Fin 4) (k : Fin 128) (q : Fin 96) :
    w3Blk m c t (ix3 e k q) = m ((c : Thread nD τ).loc main_arg6) (ix3 e k q) := by
  obtain ⟨-, -, -, -, -, -, -, f, -⟩ := idx_facts t
  show V m c main_arg6 (((cfg0.win 6).blk t).view.emb (ix3 e k q)) = _
  rw [V_main_arg6]
  refine congrArg (m ((c : Thread nD τ).loc main_arg6)) (funext fun a => Fin.ext ?_)
  match a with
  | ⟨0, _⟩ => show win0_6.index t (0 : Fin 3) * 4 + 1 * e.val = e.val; rw [f 0]; omega
  | ⟨1, _⟩ => show win0_6.index t (1 : Fin 3) * 128 + 1 * k.val = k.val; rw [f 1]; omega
  | ⟨2, _⟩ => show win0_6.index t (2 : Fin 3) * 96 + 1 * q.val = q.val; rw [f 2]; omega

theorem b3Blk_apply (c : Dev nD) (t : Fin cfg0.N) (e : Fin 4) (q : Fin 96) :
    b3Blk m c t (ix2 e q) = m ((c : Thread nD τ).loc main_arg7) (ix2 e q) := by
  obtain ⟨-, -, -, -, -, -, -, -, f, -⟩ := idx_facts t
  show V m c main_arg7 (((cfg0.win 7).blk t).view.emb (ix2 e q)) = _
  rw [V_main_arg7]
  refine congrArg (m ((c : Thread nD τ).loc main_arg7)) (funext fun a => Fin.ext ?_)
  match a with
  | ⟨0, _⟩ => show win0_7.index t (0 : Fin 2) * 4 + 1 * e.val = e.val; rw [f 0]; omega
  | ⟨1, _⟩ => show win0_7.index t (1 : Fin 2) * 96 + 1 * q.val = q.val; rw [f 1]; omega

theorem w4Blk_apply (c : Dev nD) (t : Fin cfg0.N) (e : Fin 4) (k : Fin 96) (q : Fin 1) :
    w4Blk m c t (ix3 e k q) = m ((c : Thread nD τ).loc main_arg8) (ix3 e k q) := by
  obtain ⟨-, -, -, -, -, -, -, -, -, f, -⟩ := idx_facts t
  show V m c main_arg8 (((cfg0.win 8).blk t).view.emb (ix3 e k q)) = _
  rw [V_main_arg8]
  refine congrArg (m ((c : Thread nD τ).loc main_arg8)) (funext fun a => Fin.ext ?_)
  match a with
  | ⟨0, _⟩ => show win0_8.index t (0 : Fin 3) * 4 + 1 * e.val = e.val; rw [f 0]; omega
  | ⟨1, _⟩ => show win0_8.index t (1 : Fin 3) * 96 + 1 * k.val = k.val; rw [f 1]; omega
  | ⟨2, _⟩ => show win0_8.index t (2 : Fin 3) * 1 + 1 * q.val = q.val; rw [f 2]; omega

theorem b4Blk_apply (c : Dev nD) (t : Fin cfg0.N) (e : Fin 4) (q : Fin 1) :
    b4Blk m c t (ix2 e q) = m ((c : Thread nD τ).loc main_arg9) (ix2 e q) := by
  obtain ⟨-, -, -, -, -, -, -, -, -, -, f, -⟩ := idx_facts t
  show V m c main_arg9 (((cfg0.win 9).blk t).view.emb (ix2 e q)) = _
  rw [V_main_arg9]
  refine congrArg (m ((c : Thread nD τ).loc main_arg9)) (funext fun a => Fin.ext ?_)
  match a with
  | ⟨0, _⟩ => show win0_9.index t (0 : Fin 2) * 4 + 1 * e.val = e.val; rw [f 0]; omega
  | ⟨1, _⟩ => show win0_9.index t (1 : Fin 2) * 1 + 1 * q.val = q.val; rw [f 1]; omega

/-! ## What a point writes back, the cover, and the array after the region -/

/-- WHAT POINT t WRITES BACK is block t of the specification's array, when no species word is negative. -/
theorem flushed_eq {c : Dev nD} (hs : ∀ i : S4096x32.Idx, 0 ≤ (m ((c : Thread nD τ).loc main_arg0) i : BitVec 32).toInt)
    (t : Fin cfg0.N) :
    (dats m 0 c).flushed 10 t = ((cfg0.win 10).blk t).view.read (Elt Ideal) (G m c) := by
  show (cfg0.win 10).cut (grid0.coords t) ((dats m 0 c).after 10 t) = _
  rw [after0_10, Body.out0_10_eq, View.canon_unit_zero Body.hz1]
  funext j
  obtain ⟨jj, rfl⟩ : ∃ jj : Fin 4096, j = ix1 jj := ⟨j 0, eq_ix1 j⟩
  have hemb : ((cfg0.win 10).blk t).view.emb (ix1 jj) = atomOf t jj := funext fun a => Fin.ext (by
    match a with
    | ⟨0, _⟩ => show win0_10.index t (0 : Fin 1) * 4096 + 1 * jj.val = win0_10.index t (0 : Fin 1) * 4096 + jj.val; omega)
  show Body.blockV (featBlk m c t) (specBlk m c t) (w1Blk m c t) (b1Blk m c t) (w2Blk m c t) (b2Blk m c t) (w3Blk m c t)
      (b3Blk m c t) (w4Blk m c t) (b4Blk m c t) (ix1 jj) = G m c (((cfg0.win 10).blk t).view.emb (ix1 jj))
  rw [hemb]
  have hnn : 0 ≤ (spFlat m c (atomOf t jj)).toInt := hs _
  have hsp : specBlk m c t (ix1 jj) = BitVec.ofNat 32 (Cert.MoE.expertOf (spFlat m c (atomOf t jj))).val := by
    rw [specBlk_apply, clip_eq _ hnn]
  refine (Body.blockV_apply (featBlk m c t) (specBlk m c t) (w1Blk m c t) (b1Blk m c t) (w2Blk m c t) (b2Blk m c t)
    (w3Blk m c t) (b3Blk m c t) (w4Blk m c t) (b4Blk m c t) jj (Cert.MoE.expertOf (spFlat m c (atomOf t jj))) hsp).trans ?_
  unfold G Cert.MoE.perAtom
  simp only [featBlk_apply, w1Blk_apply, b1Blk_apply, w2Blk_apply, b2Blk_apply, w3Blk_apply, b3Blk_apply, w4Blk_apply,
    b4Blk_apply]

/-- THE ARRAY AFTER THE REGION: the 32 blocks tile the 131072 atoms, so the array ends holding the specification's. -/
theorem final {c : Dev nD} (hs : ∀ i : S4096x32.Idx, 0 ≤ (m ((c : Thread nD τ).loc main_arg0) i : BitVec 32).toInt) :
    (dats m 0 c).arrAt 10 cfg0.N = G m c :=
  (dats m 0 c).arrAt_eq_of_cover 10 (G m c) (fun t _ => flushed_eq m hs t) (fun i => by
    have hi : (i 0).val < 131072 := (i 0).isLt
    obtain ⟨t, ht⟩ := idx_onto ⟨(i 0).val / 4096, by omega⟩
    refine ⟨t, flush0_10 t, ?_⟩
    show i ∈ ((View.whole main_v3).slice (win0_10.rect t)).set
    rw [View.set_slice_whole, Rect.mem_set_unit]
    intro a
    match a with
    | ⟨0, _⟩ =>
      show win0_10.index t (0 : Fin 1) * 4096 ≤ (i 0).val ∧ (i 0).val < win0_10.index t (0 : Fin 1) * 4096 + 4096
      rw [ht]
      show (i 0).val / 4096 * 4096 ≤ (i 0).val ∧ (i 0).val < (i 0).val / 4096 * 4096 + 4096
      omega)

end Cert.KernelIdeal.ArrValue

end
-- ==== Proof.KernelRun.lean ====
/-
  The kernel's run, read: after the region the host reshapes the 131072 per-atom energies to 4096 molecules of 32
  atoms and sums each molecule's atoms from zero. With the region's array at the specification's per-atom energies,
  the returned array is that molecule sum of them; the arguments end unchanged.
-/
import proofs.«419645_j25383256719857_3_alg».proof.Proof.KernelValue

set_option maxRecDepth 16384

noncomputable section

namespace Cert.KernelIdeal.ArrValue

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The molecule sum both programs end with: per-atom values regrouped as 4096 × 32 and summed along the 32 atoms
    from the zero word. -/
def molSum (P : S131072.Idx → EReal) : S4096.Idx → EReal :=
  Host.reduceAdd (F := Ideal) (shapeCast S4096x32 P shapeCasts_S131072_S4096x32) (constant (F := Ideal) S_ .f32 0x00000000#32)
    reducesTo_S4096x32_S4096_d1 h_S_

variable (m : (ℓ : Loc nD τ sig) → Buf (Elt Ideal) ℓ) (ρ : Dev nD → PrngReg)

/-- The returned array: the host operations after the region applied to the region's output array. -/
theorem result_eq {c : Dev nD} (hs : ∀ i : S4096x32.Idx, 0 ≤ (m ((c : Thread nD τ).loc main_arg0) i : BitVec 32).toInt) :
    Pipeline.afterTail₀ cfgs (dats m) 0 (V0 m) [hostOps1] c main_v5 = molSum (G m c) := by
  unfold Pipeline.afterTail₀
  show StableHlo.after hostOps1 _ (Proc.devRef .tc main_v5) = _
  after_results
  rw [(Pipeline.withArrays_arr spec0 launch0.win.arr_inj c _ _ 10).trans (final m hs)]
  rfl

/-- THE KERNEL'S RUN: every weakly fair execution terminates with the species array as it was, the result at the
    molecule sum of the specification's per-atom energies, and every argument unchanged, when no species word is
    negative. -/
theorem run (hs : ∀ (c : Dev nD) (i : S4096x32.Idx), 0 ≤ (m ((c : Thread nD τ).loc main_arg0) i : BitVec 32).toInt) :
    θ_run defs (onTc (τ := τ) (main (F := Ideal))) ⟨m, fun _ => 0, ρ⟩ fun r => ∀ c : Dev nD,
      r.2.mem ((c : Thread nD τ).loc main_arg0) = m ((c : Thread nD τ).loc main_arg0)
      ∧ r.2.mem ((c : Thread nD τ).loc main_v5) = molSum (G m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c =>
    ⟨((h c).2 main_arg0 (Pipeline.mem_restRefs_of main_arg0 (by decide) (by decide))).trans (W_main_arg0 m (dats m) c),
      ((h c).2 main_v5 (Pipeline.mem_restRefs_of main_v5 (by decide) (by decide))).trans (result_eq m (hs c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ)

end Cert.KernelIdeal.ArrValue

end
-- ==== Proof.lean ====
/-
  The certificate of a four-expert molecule-energy network: the kernel against its reference, equal over the
  extended reals when no species word is negative.

  Both programs compute, for every one of 131072 atoms, the perceptron of the expert the atom's species selects at the
  atom's 384 features (three dense layers with CELU, a last layer into a scalar), and then sum each molecule's 32 atoms.
  The kernel runs all four experts on a block of 4096 atoms on the matrix unit and keeps, per atom, the one whose number
  equals the atom's species clipped into [0, 3]; the reference runs all four experts on all atoms as batched products
  and gathers, per atom, the entry at its species (wrapped if negative, then clamped) and its own position. For a
  species word that is not negative the clip, the wrap and the clamp all name the same expert, so both per-atom arrays
  are the one function Proof/Spec.lean states, and the two molecule sums are the same host operations of it. A matrix
  product into a zero accumulator and a lane sum are plain sums at this instance and a change of float format is the
  identity; the two spellings of CELU (a select on the sign; max plus exp-minus-one of min) agree on every extended
  real; nothing needs the inputs' finiteness. A negative species word is what separates the programs (the reference
  wraps it to the last experts, the kernel clips it to the first), which is why the precondition carries that
  conjunct.

  The kernel's value is read off its generated frame run (Proof/KernelBody*.lean, Proof/KernelBlock.lean,
  Proof/KernelValue.lean, Proof/KernelRun.lean), the reference's off its generated run read stage by stage
  (Proof/RefPerAtom.lean), and the species' sign off the printed precondition (Proof/PreDecode.lean).
-/
import proofs.«419645_j25383256719857_3_alg».proof.Defs
import proofs.«419645_j25383256719857_3_alg».proof.Proof.Gen.Kernel
import proofs.«419645_j25383256719857_3_alg».proof.Proof.Gen.Kernel.Skeleton
import proofs.«419645_j25383256719857_3_alg».proof.Proof.Gen.Kernel.Launch
import proofs.«419645_j25383256719857_3_alg».proof.Proof.Gen.Kernel.Points
import proofs.«419645_j25383256719857_3_alg».proof.Proof.Gen.Kernel.Frame
import proofs.«419645_j25383256719857_3_alg».proof.Proof.Gen.KernelIdeal
import proofs.«419645_j25383256719857_3_alg».proof.Proof.Gen.KernelIdeal.Skeleton
import proofs.«419645_j25383256719857_3_alg».proof.Proof.Gen.KernelIdeal.Launch
import proofs.«419645_j25383256719857_3_alg».proof.Proof.Gen.KernelIdeal.Points
import proofs.«419645_j25383256719857_3_alg».proof.Proof.Gen.KernelIdeal.Frame
import proofs.«419645_j25383256719857_3_alg».proof.Proof.Gen.ReferenceIdeal
import proofs.«419645_j25383256719857_3_alg».proof.Proof.Gen.Pre_finite_inputs
import proofs.«419645_j25383256719857_3_alg».proof.Proof.Gen.ReferenceIdeal.Run
import proofs.«419645_j25383256719857_3_alg».proof.Proof.Gen.ReferenceIdeal.Read
import proofs.«419645_j25383256719857_3_alg».proof.Proof.PreDecode
import proofs.«419645_j25383256719857_3_alg».proof.Proof.RefPerAtom
import proofs.«419645_j25383256719857_3_alg».proof.Proof.KernelRun
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged: its generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference is host operations only: its generated run, with the result dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the species array as given and the molecule sums of the specification's per-atom
    energies of the (agreeing) arguments. -/
theorem algebraic : Cert.algebraic_KernelIdeal_ReferenceIdeal := by
  intro m ρ m' ρ' hpre hagree
  have hs : ∀ (c : Dev Cert.KernelIdeal.nD) (i : Cert.KernelIdeal.S4096x32.Idx),
      0 ≤ (m ((c : Thread Cert.KernelIdeal.nD Cert.KernelIdeal.τ).loc Cert.KernelIdeal.main_arg0) i : BitVec 32).toInt :=
    fun c => Cert.PreDecode.species_nonneg _ _ _ _ _ _ _ _ _ _ (hpre c)
  refine ⟨fun c => m ((c : Thread Cert.KernelIdeal.nD Cert.KernelIdeal.τ).loc Cert.KernelIdeal.main_arg0),
    fun c => Cert.KernelIdeal.ArrValue.molSum (Cert.KernelIdeal.ArrValue.G m c),
    Cert.KernelIdeal.ArrValue.run m ρ hs, ?_⟩
  refine (θ_run Cert.ReferenceIdeal.defs _ _).mono
    (fun _ h c => ⟨(h c).1.trans (hagree c).1, (h c).2.1.trans ?_, (h c).2.2⟩)
    (Cert.ReferenceIdeal.Value.run (F := Ideal) m' ρ')
  obtain ⟨a0, a1, a2, a3, a4, a5, a6, a7, a8, a9⟩ := hagree c
  rw [Cert.ReferenceIdeal.Read.val_main_v40_eq]
  unfold Cert.ReferenceIdeal.Read.val_main_v40 Cert.ReferenceIdeal.Read.val_main_v39
  rw [Cert.ReferenceIdeal.RefValue.ref_perAtom _ _ _ _ _ _ _ _ _ _ (by rw [a0]; exact hs c)]
  rw [a0, a1, a2, a3, a4, a5, a6, a7, a8, a9]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
